-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000 : Shape := ⟨1, ![100000]⟩
abbrev S1200000 : Shape := ⟨1, ![1200000]⟩
abbrev S10000x32 : Shape := ⟨2, ![10000, 32]⟩
abbrev S32x64 : Shape := ⟨2, ![32, 64]⟩
abbrev S64 : Shape := ⟨1, ![64]⟩
abbrev S64x64 : Shape := ⟨2, ![64, 64]⟩
abbrev S64x10 : Shape := ⟨2, ![64, 10]⟩
abbrev S10 : Shape := ⟨1, ![10]⟩
abbrev S_ : Shape := ⟨0, ![]⟩

class Facts : Prop where
  bcast_S_S10000x32 : S_.BroadcastsInDim S10000x32 (![] : Fin 0 → Fin S10000x32.rank)
  reducesTo_S10000x32_S_d0_1 : S10000x32.ReducesTo [0, 1] S_
  h_S_ : 0 < S_.numel
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x10 : S_.BroadcastsInDim S64x10 (![] : Fin 0 → Fin S64x10.rank)
  reducesTo_S64x10_S_d0_1 : S64x10.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg11 : FVec F S64x10 .f32) (main_arg12 : FVec F S10 .f32) (main_v33 : IVec S_ 1) : IVec S_ 1 :=
  let main_v34 : FVec F S64x10 .f32 := Host.absf main_arg11
  let main_cst_12 : FVec F S_ .f32 := constant S_ .f32 0x7F800000#32
  let main_v35 : FVec F S64x10 .f32 := broadcastInDim S64x10 ![] bcast_S_S64x10 main_cst_12
  let main_v36 : IVec S64x10 1 := cmpf .olt main_v34 main_v35
  let main_c_13 : IVec S_ 1 := constantI S_ 1 1#1
  let main_v37 : IVec S_ 1 := (fun x v => Host.reduce IntOp.andi x v reducesTo_S64x10_S_d0_1 h_S_) main_v36 main_c_13
  let main_v38 : IVec S_ 1 := andi main_v33 main_v37
  let main_v39 : FVec F S10 .f32 := Host.absf main_arg12
  let main_cst_14 : FVec F S_ .f32 := constant S_ .f32 0x7F800000#32
  let main_v40 : FVec F S10 .f32 := broadcastInDim S10 ![] bcast_S_S10 main_cst_14
  let main_v41 : IVec S10 1 := cmpf .olt main_v39 main_v40
  let main_c_15 : IVec S_ 1 := constantI S_ 1 1#1
  let main_v42 : IVec S_ 1 := (fun x v => Host.reduce IntOp.andi x v reducesTo_S10_S_d0 h_S_) main_v41 main_c_15
  let main_v43 : IVec S_ 1 := andi main_v38 main_v42
  main_v43

def fn_part1 {F : FTy → Type} [FloatOps F] (main_arg8 : FVec F S64x64 .f32) (main_arg9 : FVec F S64 .f32) (main_arg10 : FVec F S64x64 .f32) (main_arg11 : FVec F S64x10 .f32) (main_arg12 : FVec F S10 .f32) (main_v13 : IVec S_ 1) (main_v16 : IVec S32x64 1) : IVec S_ 1 :=
  let main_c_5 : IVec S_ 1 := constantI S_ 1 1#1
  let main_v17 : IVec S_ 1 := (fun x v => Host.reduce IntOp.andi x v reducesTo_S32x64_S_d0_1 h_S_) main_v16 main_c_5
  let main_v18 : IVec S_ 1 := andi main_v13 main_v17
  let main_v19 : FVec F S64x64 .f32 := Host.absf main_arg8
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg9
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg10
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg11 main_arg12 main_v33

def fn {F : FTy → Type} [FloatOps F] (main_arg0 : IVec S100000 32) (main_arg1 : IVec S1200000 32) (main_arg2 : IVec S1200000 32) (main_arg3 : IVec S100000 32) (main_arg4 : FVec F S10000x32 .f32) (main_arg5 : FVec F S32x64 .f32) (main_arg6 : FVec F S64 .f32) (main_arg7 : FVec F S32x64 .f32) (main_arg8 : FVec F S64x64 .f32) (main_arg9 : FVec F S64 .f32) (main_arg10 : FVec F S64x64 .f32) (main_arg11 : FVec F S64x10 .f32) (main_arg12 : FVec F S10 .f32) : IVec S_ 1 :=
  let main_v0 : FVec F S10000x32 .f32 := Host.absf main_arg4
  let main_cst : FVec F S_ .f32 := constant S_ .f32 0x7F800000#32
  let main_v1 : FVec F S10000x32 .f32 := broadcastInDim S10000x32 ![] bcast_S_S10000x32 main_cst
  let main_v2 : IVec S10000x32 1 := cmpf .olt main_v0 main_v1
  let main_c : IVec S_ 1 := constantI S_ 1 1#1
  let main_v3 : IVec S_ 1 := (fun x v => Host.reduce IntOp.andi x v reducesTo_S10000x32_S_d0_1 h_S_) main_v2 main_c
  let main_v4 : FVec F S32x64 .f32 := Host.absf main_arg5
  let main_cst_0 : FVec F S_ .f32 := constant S_ .f32 0x7F800000#32
  let main_v5 : FVec F S32x64 .f32 := broadcastInDim S32x64 ![] bcast_S_S32x64 main_cst_0
  let main_v6 : IVec S32x64 1 := cmpf .olt main_v4 main_v5
  let main_c_1 : IVec S_ 1 := constantI S_ 1 1#1
  let main_v7 : IVec S_ 1 := (fun x v => Host.reduce IntOp.andi x v reducesTo_S32x64_S_d0_1 h_S_) main_v6 main_c_1
  let main_v8 : IVec S_ 1 := andi main_v3 main_v7
  let main_v9 : FVec F S64 .f32 := Host.absf main_arg6
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S32x64 .f32 := Host.absf main_arg7
  let main_cst_4 : FVec F S_ .f32 := constant S_ .f32 0x7F800000#32
  let main_v15 : FVec F S32x64 .f32 := broadcastInDim S32x64 ![] bcast_S_S32x64 main_cst_4
  let main_v16 : IVec S32x64 1 := cmpf .olt main_v14 main_v15
  fn_part1 (F := F) main_arg8 main_arg9 main_arg10 main_arg11 main_arg12 main_v13 main_v16
-- ==== Kernel.lean ====
abbrev S100000 : Shape := ⟨1, ![100000]⟩
abbrev S1200000 : Shape := ⟨1, ![1200000]⟩
abbrev S10000x32 : Shape := ⟨2, ![10000, 32]⟩
abbrev S32x64 : Shape := ⟨2, ![32, 64]⟩
abbrev S64 : Shape := ⟨1, ![64]⟩
abbrev S64x64 : Shape := ⟨2, ![64, 64]⟩
abbrev S64x10 : Shape := ⟨2, ![64, 10]⟩
abbrev S10 : Shape := ⟨1, ![10]⟩
abbrev S_ : Shape := ⟨0, ![]⟩
abbrev S100000x1 : Shape := ⟨2, ![100000, 1]⟩
abbrev S100000x32 : Shape := ⟨2, ![100000, 32]⟩
abbrev S1200000x1 : Shape := ⟨2, ![1200000, 1]⟩
abbrev S1200000x32 : Shape := ⟨2, ![1200000, 32]⟩
abbrev S1x64 : Shape := ⟨2, ![1, 64]⟩
abbrev S100000x64 : Shape := ⟨2, ![100000, 64]⟩
abbrev S10000x64 : Shape := ⟨2, ![10000, 64]⟩
abbrev S1200000x64 : Shape := ⟨2, ![1200000, 64]⟩
abbrev S1024x64 : Shape := ⟨2, ![1024, 64]⟩
abbrev S1024 : Shape := ⟨1, ![1024]⟩
abbrev S1024x1 : Shape := ⟨2, ![1024, 1]⟩
abbrev S1x10 : Shape := ⟨2, ![1, 10]⟩
abbrev S1024x10 : Shape := ⟨2, ![1024, 10]⟩

abbrev nBuf : Space → Nat
  | .hbm => 94
  | .vmem => 22
  | .smem => 0
  | _ => 0

abbrev bufTy : (tb : Table) → Fin (tcTables nBuf tb) → BufTy
  | .hbm, ⟨0, _⟩ => ⟨S100000, .i32⟩
  | .hbm, ⟨1, _⟩ => ⟨S1200000, .i32⟩
  | .hbm, ⟨2, _⟩ => ⟨S1200000, .i32⟩
  | .hbm, ⟨3, _⟩ => ⟨S100000, .i32⟩
  | .hbm, ⟨4, _⟩ => ⟨S10000x32, .f32⟩
  | .hbm, ⟨5, _⟩ => ⟨S32x64, .f32⟩
  | .hbm, ⟨6, _⟩ => ⟨S64, .f32⟩
  | .hbm, ⟨7, _⟩ => ⟨S32x64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S64x10, .f32⟩
  | .hbm, ⟨12, _⟩ => ⟨S10, .f32⟩
  | .hbm, ⟨13, _⟩ => ⟨S_, .i32⟩
  | .hbm, ⟨14, _⟩ => ⟨S100000, .i32⟩
  | .hbm, ⟨15, _⟩ => ⟨S100000, .i1⟩
  | .hbm, ⟨16, _⟩ => ⟨S_, .i32⟩
  | .hbm, ⟨17, _⟩ => ⟨S100000, .i32⟩
  | .hbm, ⟨18, _⟩ => ⟨S100000, .i32⟩
  | .hbm, ⟨19, _⟩ => ⟨S100000, .i32⟩
  | .hbm, ⟨20, _⟩ => ⟨S100000x1, .i32⟩
  | .hbm, ⟨21, _⟩ => ⟨S100000x32, .f32⟩
  | .hbm, ⟨22, _⟩ => ⟨S_, .i32⟩
  | .hbm, ⟨23, _⟩ => ⟨S1200000, .i32⟩
  | .hbm, ⟨24, _⟩ => ⟨S1200000, .i1⟩
  | .hbm, ⟨25, _⟩ => ⟨S_, .i32⟩
  | .hbm, ⟨26, _⟩ => ⟨S1200000, .i32⟩
  | .hbm, ⟨27, _⟩ => ⟨S1200000, .i32⟩
  | .hbm, ⟨28, _⟩ => ⟨S1200000, .i32⟩
  | .hbm, ⟨29, _⟩ => ⟨S1200000x1, .i32⟩
  | .hbm, ⟨30, _⟩ => ⟨S1200000x32, .f32⟩
  | .hbm, ⟨31, _⟩ => ⟨S_, .f32⟩
  | .hbm, ⟨32, _⟩ => ⟨S100000x32, .f32⟩
  | .hbm, ⟨33, _⟩ => ⟨S1200000x1, .i32⟩
  | .hbm, ⟨34, _⟩ => ⟨S100000x32, .f32⟩
  | .hbm, ⟨35, _⟩ => ⟨S_, .f32⟩
  | .hbm, ⟨36, _⟩ => ⟨S1200000, .f32⟩
  | .hbm, ⟨37, _⟩ => ⟨S_, .f32⟩
  | .hbm, ⟨38, _⟩ => ⟨S100000, .f32⟩
  | .hbm, ⟨39, _⟩ => ⟨S1200000x1, .i32⟩
  | .hbm, ⟨40, _⟩ => ⟨S100000, .f32⟩
  | .hbm, ⟨41, _⟩ => ⟨S_, .f32⟩
  | .hbm, ⟨42, _⟩ => ⟨S100000, .f32⟩
  | .hbm, ⟨43, _⟩ => ⟨S100000, .f32⟩
  | .hbm, ⟨44, _⟩ => ⟨S100000x1, .f32⟩
  | .hbm, ⟨45, _⟩ => ⟨S100000x32, .f32⟩
  | .hbm, ⟨46, _⟩ => ⟨S100000x32, .f32⟩
  | .hbm, ⟨47, _⟩ => ⟨S1x64, .f32⟩
  | .hbm, ⟨48, _⟩ => ⟨S100000x64, .f32⟩
  | .hbm, ⟨49, _⟩ => ⟨S_, .i32⟩
  | .hbm, ⟨50, _⟩ => ⟨S1200000, .i32⟩
  | .hbm, ⟨51, _⟩ => ⟨S1200000, .i1⟩
  | .hbm, ⟨52, _⟩ => ⟨S_, .i32⟩
  | .hbm, ⟨53, _⟩ => ⟨S1200000, .i32⟩
  | .hbm, ⟨54, _⟩ => ⟨S1200000, .i32⟩
  | .hbm, ⟨55, _⟩ => ⟨S1200000, .i32⟩
  | .hbm, ⟨56, _⟩ => ⟨S1200000x1, .i32⟩
  | .hbm, ⟨57, _⟩ => ⟨S1200000x64, .f32⟩
  | .hbm, ⟨58, _⟩ => ⟨S_, .f32⟩
  | .hbm, ⟨59, _⟩ => ⟨S100000x64, .f32⟩
  | .hbm, ⟨60, _⟩ => ⟨S1200000x1, .i32⟩
  | .hbm, ⟨61, _⟩ => ⟨S100000x64, .f32⟩
  | .hbm, ⟨62, _⟩ => ⟨S_, .f32⟩
  | .hbm, ⟨63, _⟩ => ⟨S1200000, .f32⟩
  | .hbm, ⟨64, _⟩ => ⟨S_, .f32⟩
  | .hbm, ⟨65, _⟩ => ⟨S100000, .f32⟩
  | .hbm, ⟨66, _⟩ => ⟨S1200000x1, .i32⟩
  | .hbm, ⟨67, _⟩ => ⟨S100000, .f32⟩
  | .hbm, ⟨68, _⟩ => ⟨S_, .f32⟩
  | .hbm, ⟨69, _⟩ => ⟨S100000, .f32⟩
  | .hbm, ⟨70, _⟩ => ⟨S100000, .f32⟩
  | .hbm, ⟨71, _⟩ => ⟨S100000x1, .f32⟩
  | .hbm, ⟨72, _⟩ => ⟨S100000x64, .f32⟩
  | .hbm, ⟨73, _⟩ => ⟨S100000x64, .f32⟩
  | .hbm, ⟨74, _⟩ => ⟨S1x64, .f32⟩
  | .hbm, ⟨75, _⟩ => ⟨S100000x64, .f32⟩
  | .hbm, ⟨76, _⟩ => ⟨S_, .f32⟩
  | .hbm, ⟨77, _⟩ => ⟨S1024x64, .f32⟩
  | .hbm, ⟨78, _⟩ => ⟨S100000x1, .i32⟩
  | .hbm, ⟨79, _⟩ => ⟨S1024x64, .f32⟩
  | .hbm, ⟨80, _⟩ => ⟨S_, .f32⟩
  | .hbm, ⟨81, _⟩ => ⟨S100000, .f32⟩
  | .hbm, ⟨82, _⟩ => ⟨S_, .f32⟩
  | .hbm, ⟨83, _⟩ => ⟨S1024, .f32⟩
  | .hbm, ⟨84, _⟩ => ⟨S100000x1, .i32⟩
  | .hbm, ⟨85, _⟩ => ⟨S1024, .f32⟩
  | .hbm, ⟨86, _⟩ => ⟨S_, .f32⟩
  | .hbm, ⟨87, _⟩ => ⟨S1024, .f32⟩
  | .hbm, ⟨88, _⟩ => ⟨S1024, .f32⟩
  | .hbm, ⟨89, _⟩ => ⟨S1024x1, .f32⟩
  | .hbm, ⟨90, _⟩ => ⟨S1024x64, .f32⟩
  | .hbm, ⟨91, _⟩ => ⟨S1024x64, .f32⟩
  | .hbm, ⟨92, _⟩ => ⟨S1x10, .f32⟩
  | .hbm, ⟨93, _⟩ => ⟨S1024x10, .f32⟩
  | .local _ .vmem, ⟨0, _⟩ => ⟨S10000x32, .f32⟩
  | .local _ .vmem, ⟨1, _⟩ => ⟨S10000x32, .f32⟩
  | .local _ .vmem, ⟨2, _⟩ => ⟨S10000x32, .f32⟩
  | .local _ .vmem, ⟨3, _⟩ => ⟨S10000x32, .f32⟩
  | .local _ .vmem, ⟨4, _⟩ => ⟨S32x64, .f32⟩
  | .local _ .vmem, ⟨5, _⟩ => ⟨S1x64, .f32⟩
  | .local _ .vmem, ⟨6, _⟩ => ⟨S32x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S64x64, .f32⟩
  | .local _ .vmem, ⟨14, _⟩ => ⟨S1x64, .f32⟩
  | .local _ .vmem, ⟨15, _⟩ => ⟨S64x64, .f32⟩
  | .local _ .vmem, ⟨16, _⟩ => ⟨S10000x64, .f32⟩
  | .local _ .vmem, ⟨17, _⟩ => ⟨S10000x64, .f32⟩
  | .local _ .vmem, ⟨18, _⟩ => ⟨S1024x64, .f32⟩
  | .local _ .vmem, ⟨19, _⟩ => ⟨S64x10, .f32⟩
  | .local _ .vmem, ⟨20, _⟩ => ⟨S1x10, .f32⟩
  | .local _ .vmem, ⟨21, _⟩ => ⟨S1024x10, .f32⟩
  | _, _ => ⟨S100000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_c_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_c_1 : Ref sig .tc := ⟨.hbm, 22, rfl⟩
abbrev main_v7 : Ref sig .tc := ⟨.hbm, 23, rfl⟩
abbrev main_v8 : Ref sig .tc := ⟨.hbm, 24, rfl⟩
abbrev main_c_2 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_3 : Ref sig .tc := ⟨.hbm, 35, rfl⟩
abbrev main_v17 : Ref sig .tc := ⟨.hbm, 36, rfl⟩
abbrev main_cst_4 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_5 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_call0_v0 : Ref sig .tc := ⟨.hbm, 47, rfl⟩
abbrev main_v26 : Ref sig .tc := ⟨.hbm, 48, rfl⟩
abbrev main_c_6 : Ref sig .tc := ⟨.hbm, 49, rfl⟩
abbrev main_v27 : Ref sig .tc := ⟨.hbm, 50, rfl⟩
abbrev main_v28 : Ref sig .tc := ⟨.hbm, 51, rfl⟩
abbrev main_c_7 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_cst_8 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_cst_9 : Ref sig .tc := ⟨.hbm, 62, rfl⟩
abbrev main_v37 : Ref sig .tc := ⟨.hbm, 63, rfl⟩
abbrev main_cst_10 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_11 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_call1_v0 : Ref sig .tc := ⟨.hbm, 74, rfl⟩
abbrev main_v46 : Ref sig .tc := ⟨.hbm, 75, rfl⟩
abbrev main_cst_12 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_cst_13 : Ref sig .tc := ⟨.hbm, 80, rfl⟩
abbrev main_v50 : Ref sig .tc := ⟨.hbm, 81, rfl⟩
abbrev main_cst_14 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_cst_15 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_call2_v0 : Ref sig .tc := ⟨.hbm, 92, rfl⟩
abbrev main_v59 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg3_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem1_0 : DmaSem sig := 19
abbrev cc2_sem2_0 : DmaSem sig := 20
abbrev cc2_sem3_0 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S1024x64 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S64x10 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x10 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1024x10 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  shapeCasts_S64_S1x64 : S64.ShapeCasts S1x64
  inb_S10000x32_S10000x32_0_0 : ∀ a, (![0, 0] : Fin 2 → Nat) a + S10000x32.size a ≤ S10000x32.size a
  h_S10000x32 : 0 < S10000x32.numel
  shapeCasts_S10000x32_S10000x32 : S10000x32.ShapeCasts S10000x32
  bitsLt_bf16_f32 : FTy.bits .bf16 < FTy.bits .f32
  inb_S32x64_S32x64_0_0 : ∀ a, (![0, 0] : Fin 2 → Nat) a + S32x64.size a ≤ S32x64.size a
  h_S32x64 : 0 < S32x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  bcast_S_S1024x64 : S_.BroadcastsInDim S1024x64 (![] : Fin 0 → Fin S1024x64.rank)
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x64_0_1 : S1024x1.BroadcastsInDim S1024x64 (![0, 1] : Fin 2 → Fin S1024x64.rank)
  shapeCasts_S10_S1x10 : S10.ShapeCasts S1x10
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S64x10_S64x10_0_0 : ∀ a, (![0, 0] : Fin 2 → Nat) a + S64x10.size a ≤ S64x10.size a
  h_S64x10 : 0 < S64x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S1024x10 : S1x10.Broadcasts S1024x10
  inb_S1024x10_S1024x10_0_0 : ∀ a, (![0, 0] : Fin 2 → Nat) a + S1024x10.size a ≤ S1024x10.size a
  h_S1024x10 : 0 < S1024x10.numel
  gather_S10000x32_S100000x1_S100000x32_1_0_n_n_0_1_132_wf : GatherDims.WF S10000x32 S100000x1 S100000x32 [1] [0] [] [0] [] 1 ![1, 32]
  gather_S100000x32_S1200000x1_S1200000x32_1_0_n_n_0_1_132_wf : GatherDims.WF S100000x32 S1200000x1 S1200000x32 [1] [0] [] [0] [] 1 ![1, 32]
  scatter_S100000x32_S1200000x1_S1200000x32_1_0_0_1_wf : ScatterDims.WF S100000x32 S1200000x1 S1200000x32 [1] [0] [0] 1
  scatter_S100000_S1200000x1_S1200000_n_0_0_1_wf : ScatterDims.WF S100000 S1200000x1 S1200000 [] [0] [0] 1
  dot_S10000x32_S32x64_S10000x64_1_0_0_1_n_n_wf : DotDims.WF S10000x32 S32x64 S10000x64 [1] [0] [0] [1] [] []
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S10000x64_S64x64_S10000x64_1_0_0_1_n_n_wf : DotDims.WF S10000x64 S64x64 S10000x64 [1] [0] [0] [1] [] []
  scatter_S1024x64_S100000x1_S100000x64_1_0_0_1_wf : ScatterDims.WF S1024x64 S100000x1 S100000x64 [1] [0] [0] 1
  scatter_S1024_S100000x1_S100000_n_0_0_1_wf : ScatterDims.WF S1024 S100000x1 S100000 [] [0] [0] 1
  dot_S1024x64_S64x10_S1024x10_1_0_0_1_n_n_wf : DotDims.WF S1024x64 S64x10 S1024x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x32.size a ≤ S100000x32.size a
  hwx0_0 : ∀ i : grid0.Coords, EltTy.bits .f32 = 32 ∨ (Rect.block (s := S100000x32) S10000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x32.size a ≤ S100000x32.size a
  hwx0_1 : ∀ i : grid0.Coords, EltTy.bits .f32 = 32 ∨ (Rect.block (s := S100000x32) S10000x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x64.size a ≤ S32x64.size a
  hwx0_2 : ∀ i : grid0.Coords, EltTy.bits .f32 = 32 ∨ (Rect.block (s := S32x64) S32x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x64.size a ≤ S32x64.size a
  hwx0_4 : ∀ i : grid0.Coords, EltTy.bits .f32 = 32 ∨ (Rect.block (s := S32x64) S32x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S100000x64.size a
  hwx0_5 : ∀ i : grid0.Coords, EltTy.bits .f32 = 32 ∨ (Rect.block (s := S100000x64) S10000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x64.size a ≤ S100000x64.size a
  hwx1_5 : ∀ i : grid1.Coords, EltTy.bits .f32 = 32 ∨ (Rect.block (s := S100000x64) S10000x64.size (cc1_transform_5 i) (hinb1_5 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S1024x64.size a ≤ S1024x64.size a
  hwx2_0 : ∀ i : grid2.Coords, EltTy.bits .f32 = 32 ∨ (Rect.block (s := S1024x64) S1024x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x10.size a ≤ S64x10.size a
  hwx2_1 : ∀ i : grid2.Coords, EltTy.bits .f32 = 32 ∨ (Rect.block (s := S64x10) S64x10.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x10.size a ≤ S1x10.size a
  hwx2_2 : ∀ i : grid2.Coords, EltTy.bits .f32 = 32 ∨ (Rect.block (s := S1x10) S1x10.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1024x10.size a ≤ S1024x10.size a
  hwx2_3 : ∀ i : grid2.Coords, EltTy.bits .f32 = 32 ∨ (Rect.block (s := S1024x10) S1024x10.size (cc2_transform_3 i) (hinb2_3 i)).WholeWords (EltTy.packing .f32)

variable [Facts₀]

def gather_S10000x32_S100000x1_S100000x32_1_0_n_n_0_1_132 : GatherDims S10000x32 S100000x1 S100000x32 where
  offsetDims := [1]
  collapsedSliceDims := [0]
  operandBatchingDims := []
  startIndicesBatchingDims := []
  startIndexMap := [0]
  indexVectorDim := 1
  sliceSizes := ![1, 32]
  wf := gather_S10000x32_S100000x1_S100000x32_1_0_n_n_0_1_132_wf
def gather_S100000x32_S1200000x1_S1200000x32_1_0_n_n_0_1_132 : GatherDims S100000x32 S1200000x1 S1200000x32 where
  offsetDims := [1]
  collapsedSliceDims := [0]
  operandBatchingDims := []
  startIndicesBatchingDims := []
  startIndexMap := [0]
  indexVectorDim := 1
  sliceSizes := ![1, 32]
  wf := gather_S100000x32_S1200000x1_S1200000x32_1_0_n_n_0_1_132_wf
def scatter_S100000x32_S1200000x1_S1200000x32_1_0_0_1 : ScatterDims S100000x32 S1200000x1 S1200000x32 where
  updateWindowDims := [1]
  insertedWindowDims := [0]
  scatterDimsToOperandDims := [0]
  indexVectorDim := 1
  wf := scatter_S100000x32_S1200000x1_S1200000x32_1_0_0_1_wf
def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def dot_S10000x32_S32x64_S10000x64_1_0_0_1_n_n : DotDims S10000x32 S32x64 S10000x64 where
  lhsContracting := [1]
  rhsContracting := [0]
  lhsNonContracting := [0]
  rhsNonContracting := [1]
  lhsBatch := []
  rhsBatch := []
  wf := dot_S10000x32_S32x64_S10000x64_1_0_0_1_n_n_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def scatter_S1024x64_S100000x1_S100000x64_1_0_0_1 : ScatterDims S1024x64 S100000x1 S100000x64 where
  updateWindowDims := [1]
  insertedWindowDims := [0]
  scatterDimsToOperandDims := [0]
  indexVectorDim := 1
  wf := scatter_S1024x64_S100000x1_S100000x64_1_0_0_1_wf
def scatter_S1024_S100000x1_S100000_n_0_0_1 : ScatterDims S1024 S100000x1 S100000 where
  updateWindowDims := []
  insertedWindowDims := [0]
  scatterDimsToOperandDims := [0]
  indexVectorDim := 1
  wf := scatter_S1024_S100000x1_S100000_n_0_0_1_wf
def dot_S1024x64_S64x10_S1024x10_1_0_0_1_n_n : DotDims S1024x64 S64x10 S1024x10 where
  lhsContracting := [1]
  rhsContracting := [0]
  lhsNonContracting := [0]
  rhsNonContracting := [1]
  lhsBatch := []
  rhsBatch := []
  wf := dot_S1024x64_S64x10_S1024x10_1_0_0_1_n_n_wf

abbrev win0_0 : Pipeline.Window sig grid0 :=
  Pipeline.Window.ofSpec (Memref.whole main_v25) S10000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S10000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S32x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v0) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S32x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S10000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v45) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_call1_v0) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg10) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v46) S10000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v58) S1024x64.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg11) S64x10.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_call2_v0) S1x10.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v59) S1024x10.size cc2_transform_3 reads2_3 true true 1 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000 : Shape := ⟨1, ![100000]⟩
abbrev S1200000 : Shape := ⟨1, ![1200000]⟩
abbrev S10000x32 : Shape := ⟨2, ![10000, 32]⟩
abbrev S32x64 : Shape := ⟨2, ![32, 64]⟩
abbrev S64 : Shape := ⟨1, ![64]⟩
abbrev S64x64 : Shape := ⟨2, ![64, 64]⟩
abbrev S64x10 : Shape := ⟨2, ![64, 10]⟩
abbrev S10 : Shape := ⟨1, ![10]⟩
abbrev S_ : Shape := ⟨0, ![]⟩
abbrev S100000x1 : Shape := ⟨2, ![100000, 1]⟩
abbrev S100000x32 : Shape := ⟨2, ![100000, 32]⟩
abbrev S1200000x1 : Shape := ⟨2, ![1200000, 1]⟩
abbrev S1200000x32 : Shape := ⟨2, ![1200000, 32]⟩
abbrev S100000x64 : Shape := ⟨2, ![100000, 64]⟩
abbrev S1x64 : Shape := ⟨2, ![1, 64]⟩
abbrev S1200000x64 : Shape := ⟨2, ![1200000, 64]⟩
abbrev S1024x64 : Shape := ⟨2, ![1024, 64]⟩
abbrev S1024 : Shape := ⟨1, ![1024]⟩
abbrev S1024x1 : Shape := ⟨2, ![1024, 1]⟩
abbrev S1024x10 : Shape := ⟨2, ![1024, 10]⟩
abbrev S1x10 : Shape := ⟨2, ![1, 10]⟩

abbrev nBuf : Space → Nat
  | .hbm => 110
  | .vmem => 0
  | .smem => 0
  | _ => 0

abbrev bufTy : (tb : Table) → Fin (tcTables nBuf tb) → BufTy
  | .hbm, ⟨0, _⟩ => ⟨S100000, .i32⟩
  | .hbm, ⟨1, _⟩ => ⟨S1200000, .i32⟩
  | .hbm, ⟨2, _⟩ => ⟨S1200000, .i32⟩
  | .hbm, ⟨3, _⟩ => ⟨S100000, .i32⟩
  | .hbm, ⟨4, _⟩ => ⟨S10000x32, .f32⟩
  | .hbm, ⟨5, _⟩ => ⟨S32x64, .f32⟩
  | .hbm, ⟨6, _⟩ => ⟨S64, .f32⟩
  | .hbm, ⟨7, _⟩ => ⟨S32x64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S64x10, .f32⟩
  | .hbm, ⟨12, _⟩ => ⟨S10, .f32⟩
  | .hbm, ⟨13, _⟩ => ⟨S_, .i32⟩
  | .hbm, ⟨14, _⟩ => ⟨S100000, .i32⟩
  | .hbm, ⟨15, _⟩ => ⟨S100000, .i1⟩
  | .hbm, ⟨16, _⟩ => ⟨S_, .i32⟩
  | .hbm, ⟨17, _⟩ => ⟨S100000, .i32⟩
  | .hbm, ⟨18, _⟩ => ⟨S100000, .i32⟩
  | .hbm, ⟨19, _⟩ => ⟨S100000, .i32⟩
  | .hbm, ⟨20, _⟩ => ⟨S100000x1, .i32⟩
  | .hbm, ⟨21, _⟩ => ⟨S100000x32, .f32⟩
  | .hbm, ⟨22, _⟩ => ⟨S_, .i32⟩
  | .hbm, ⟨23, _⟩ => ⟨S1200000, .i32⟩
  | .hbm, ⟨24, _⟩ => ⟨S1200000, .i1⟩
  | .hbm, ⟨25, _⟩ => ⟨S_, .i32⟩
  | .hbm, ⟨26, _⟩ => ⟨S1200000, .i32⟩
  | .hbm, ⟨27, _⟩ => ⟨S1200000, .i32⟩
  | .hbm, ⟨28, _⟩ => ⟨S1200000, .i32⟩
  | .hbm, ⟨29, _⟩ => ⟨S1200000x1, .i32⟩
  | .hbm, ⟨30, _⟩ => ⟨S1200000x32, .f32⟩
  | .hbm, ⟨31, _⟩ => ⟨S_, .f32⟩
  | .hbm, ⟨32, _⟩ => ⟨S100000x32, .f32⟩
  | .hbm, ⟨33, _⟩ => ⟨S1200000x1, .i32⟩
  | .hbm, ⟨34, _⟩ => ⟨S100000x32, .f32⟩
  | .hbm, ⟨35, _⟩ => ⟨S_, .f32⟩
  | .hbm, ⟨36, _⟩ => ⟨S1200000, .f32⟩
  | .hbm, ⟨37, _⟩ => ⟨S_, .f32⟩
  | .hbm, ⟨38, _⟩ => ⟨S100000, .f32⟩
  | .hbm, ⟨39, _⟩ => ⟨S1200000x1, .i32⟩
  | .hbm, ⟨40, _⟩ => ⟨S100000, .f32⟩
  | .hbm, ⟨41, _⟩ => ⟨S_, .f32⟩
  | .hbm, ⟨42, _⟩ => ⟨S100000, .f32⟩
  | .hbm, ⟨43, _⟩ => ⟨S100000, .f32⟩
  | .hbm, ⟨44, _⟩ => ⟨S100000x1, .f32⟩
  | .hbm, ⟨45, _⟩ => ⟨S100000x32, .f32⟩
  | .hbm, ⟨46, _⟩ => ⟨S100000x32, .f32⟩
  | .hbm, ⟨47, _⟩ => ⟨S100000x64, .f32⟩
  | .hbm, ⟨48, _⟩ => ⟨S1x64, .f32⟩
  | .hbm, ⟨49, _⟩ => ⟨S100000x64, .f32⟩
  | .hbm, ⟨50, _⟩ => ⟨S100000x64, .f32⟩
  | .hbm, ⟨51, _⟩ => ⟨S100000x64, .f32⟩
  | .hbm, ⟨52, _⟩ => ⟨S100000x64, .f32⟩
  | .hbm, ⟨53, _⟩ => ⟨S_, .f32⟩
  | .hbm, ⟨54, _⟩ => ⟨S100000x64, .f32⟩
  | .hbm, ⟨55, _⟩ => ⟨S100000x64, .f32⟩
  | .hbm, ⟨56, _⟩ => ⟨S_, .i32⟩
  | .hbm, ⟨57, _⟩ => ⟨S1200000, .i32⟩
  | .hbm, ⟨58, _⟩ => ⟨S1200000, .i1⟩
  | .hbm, ⟨59, _⟩ => ⟨S_, .i32⟩
  | .hbm, ⟨60, _⟩ => ⟨S1200000, .i32⟩
  | .hbm, ⟨61, _⟩ => ⟨S1200000, .i32⟩
  | .hbm, ⟨62, _⟩ => ⟨S1200000, .i32⟩
  | .hbm, ⟨63, _⟩ => ⟨S1200000x1, .i32⟩
  | .hbm, ⟨64, _⟩ => ⟨S1200000x64, .f32⟩
  | .hbm, ⟨65, _⟩ => ⟨S_, .f32⟩
  | .hbm, ⟨66, _⟩ => ⟨S100000x64, .f32⟩
  | .hbm, ⟨67, _⟩ => ⟨S1200000x1, .i32⟩
  | .hbm, ⟨68, _⟩ => ⟨S100000x64, .f32⟩
  | .hbm, ⟨69, _⟩ => ⟨S_, .f32⟩
  | .hbm, ⟨70, _⟩ => ⟨S1200000, .f32⟩
  | .hbm, ⟨71, _⟩ => ⟨S_, .f32⟩
  | .hbm, ⟨72, _⟩ => ⟨S100000, .f32⟩
  | .hbm, ⟨73, _⟩ => ⟨S1200000x1, .i32⟩
  | .hbm, ⟨74, _⟩ => ⟨S100000, .f32⟩
  | .hbm, ⟨75, _⟩ => ⟨S_, .f32⟩
  | .hbm, ⟨76, _⟩ => ⟨S100000, .f32⟩
  | .hbm, ⟨77, _⟩ => ⟨S100000, .f32⟩
  | .hbm, ⟨78, _⟩ => ⟨S100000x1, .f32⟩
  | .hbm, ⟨79, _⟩ => ⟨S100000x64, .f32⟩
  | .hbm, ⟨80, _⟩ => ⟨S100000x64, .f32⟩
  | .hbm, ⟨81, _⟩ => ⟨S100000x64, .f32⟩
  | .hbm, ⟨82, _⟩ => ⟨S1x64, .f32⟩
  | .hbm, ⟨83, _⟩ => ⟨S100000x64, .f32⟩
  | .hbm, ⟨84, _⟩ => ⟨S100000x64, .f32⟩
  | .hbm, ⟨85, _⟩ => ⟨S100000x64, .f32⟩
  | .hbm, ⟨86, _⟩ => ⟨S100000x64, .f32⟩
  | .hbm, ⟨87, _⟩ => ⟨S_, .f32⟩
  | .hbm, ⟨88, _⟩ => ⟨S100000x64, .f32⟩
  | .hbm, ⟨89, _⟩ => ⟨S100000x64, .f32⟩
  | .hbm, ⟨90, _⟩ => ⟨S_, .f32⟩
  | .hbm, ⟨91, _⟩ => ⟨S1024x64, .f32⟩
  | .hbm, ⟨92, _⟩ => ⟨S100000x1, .i32⟩
  | .hbm, ⟨93, _⟩ => ⟨S1024x64, .f32⟩
  | .hbm, ⟨94, _⟩ => ⟨S_, .f32⟩
  | .hbm, ⟨95, _⟩ => ⟨S100000, .f32⟩
  | .hbm, ⟨96, _⟩ => ⟨S_, .f32⟩
  | .hbm, ⟨97, _⟩ => ⟨S1024, .f32⟩
  | .hbm, ⟨98, _⟩ => ⟨S100000x1, .i32⟩
  | .hbm, ⟨99, _⟩ => ⟨S1024, .f32⟩
  | .hbm, ⟨100, _⟩ => ⟨S_, .f32⟩
  | .hbm, ⟨101, _⟩ => ⟨S1024, .f32⟩
  | .hbm, ⟨102, _⟩ => ⟨S1024, .f32⟩
  | .hbm, ⟨103, _⟩ => ⟨S1024x1, .f32⟩
  | .hbm, ⟨104, _⟩ => ⟨S1024x64, .f32⟩
  | .hbm, ⟨105, _⟩ => ⟨S1024x64, .f32⟩
  | .hbm, ⟨106, _⟩ => ⟨S1024x10, .f32⟩
  | .hbm, ⟨107, _⟩ => ⟨S1x10, .f32⟩
  | .hbm, ⟨108, _⟩ => ⟨S1024x10, .f32⟩
  | .hbm, ⟨109, _⟩ => ⟨S1024x10, .f32⟩
  | _, _ => ⟨S100000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_c_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_c_1 : Ref sig .tc := ⟨.hbm, 22, rfl⟩
abbrev main_v7 : Ref sig .tc := ⟨.hbm, 23, rfl⟩
abbrev main_v8 : Ref sig .tc := ⟨.hbm, 24, rfl⟩
abbrev main_c_2 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_3 : Ref sig .tc := ⟨.hbm, 35, rfl⟩
abbrev main_v17 : Ref sig .tc := ⟨.hbm, 36, rfl⟩
abbrev main_cst_4 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_5 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_call0_cst : Ref sig .tc := ⟨.hbm, 53, rfl⟩
abbrev main_call0_v0 : Ref sig .tc := ⟨.hbm, 54, rfl⟩
abbrev main_v32 : Ref sig .tc := ⟨.hbm, 55, rfl⟩
abbrev main_c_6 : Ref sig .tc := ⟨.hbm, 56, rfl⟩
abbrev main_v33 : Ref sig .tc := ⟨.hbm, 57, rfl⟩
abbrev main_v34 : Ref sig .tc := ⟨.hbm, 58, rfl⟩
abbrev main_c_7 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_8 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_9 : Ref sig .tc := ⟨.hbm, 69, rfl⟩
abbrev main_v43 : Ref sig .tc := ⟨.hbm, 70, rfl⟩
abbrev main_cst_10 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_11 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_call1_cst : Ref sig .tc := ⟨.hbm, 87, rfl⟩
abbrev main_call1_v0 : Ref sig .tc := ⟨.hbm, 88, rfl⟩
abbrev main_v58 : Ref sig .tc := ⟨.hbm, 89, rfl⟩
abbrev main_cst_12 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_cst_13 : Ref sig .tc := ⟨.hbm, 94, rfl⟩
abbrev main_v62 : Ref sig .tc := ⟨.hbm, 95, rfl⟩
abbrev main_cst_14 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_cst_15 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩

abbrev nD : Nat := 1
abbrev τ : Topo := Topo.v7x

variable {F : FTy → Type} [FloatOps F]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S_S1024x64 : S_.BroadcastsInDim S1024x64 (![] : Fin 0 → Fin S1024x64.rank)
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x64_0_1 : S1024x1.BroadcastsInDim S1024x64 (![0, 1] : Fin 2 → Fin S1024x64.rank)
  bcast_S10_S1x10_1 : S10.BroadcastsInDim S1x10 (![1] : Fin 1 → Fin S1x10.rank)
  bcast_S1x10_S1024x10_0_1 : S1x10.BroadcastsInDim S1024x10 (![0, 1] : Fin 2 → Fin S1024x10.rank)
  gather_S10000x32_S100000x1_S100000x32_1_0_n_n_0_1_132_wf : GatherDims.WF S10000x32 S100000x1 S100000x32 [1] [0] [] [0] [] 1 ![1, 32]
  gather_S100000x32_S1200000x1_S1200000x32_1_0_n_n_0_1_132_wf : GatherDims.WF S100000x32 S1200000x1 S1200000x32 [1] [0] [] [0] [] 1 ![1, 32]
  scatter_S100000x32_S1200000x1_S1200000x32_1_0_0_1_wf : ScatterDims.WF S100000x32 S1200000x1 S1200000x32 [1] [0] [0] 1
  scatter_S100000_S1200000x1_S1200000_n_0_0_1_wf : ScatterDims.WF S100000 S1200000x1 S1200000 [] [0] [0] 1
  dot_S100000x32_S32x64_S100000x64_1_0_0_1_n_n_wf : DotDims.WF S100000x32 S32x64 S100000x64 [1] [0] [0] [1] [] []
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S100000x64_S64x64_S100000x64_1_0_0_1_n_n_wf : DotDims.WF S100000x64 S64x64 S100000x64 [1] [0] [0] [1] [] []
  scatter_S1024x64_S100000x1_S100000x64_1_0_0_1_wf : ScatterDims.WF S1024x64 S100000x1 S100000x64 [1] [0] [0] 1
  scatter_S1024_S100000x1_S100000_n_0_0_1_wf : ScatterDims.WF S1024 S100000x1 S100000 [] [0] [0] 1
  dot_S1024x64_S64x10_S1024x10_1_0_0_1_n_n_wf : DotDims.WF S1024x64 S64x10 S1024x10 [1] [0] [0] [1] [] []

variable [Facts₀]

def gather_S10000x32_S100000x1_S100000x32_1_0_n_n_0_1_132 : GatherDims S10000x32 S100000x1 S100000x32 where
  offsetDims := [1]
  collapsedSliceDims := [0]
  operandBatchingDims := []
  startIndicesBatchingDims := []
  startIndexMap := [0]
  indexVectorDim := 1
  sliceSizes := ![1, 32]
  wf := gather_S10000x32_S100000x1_S100000x32_1_0_n_n_0_1_132_wf
def gather_S100000x32_S1200000x1_S1200000x32_1_0_n_n_0_1_132 : GatherDims S100000x32 S1200000x1 S1200000x32 where
  offsetDims := [1]
  collapsedSliceDims := [0]
  operandBatchingDims := []
  startIndicesBatchingDims := []
  startIndexMap := [0]
  indexVectorDim := 1
  sliceSizes := ![1, 32]
  wf := gather_S100000x32_S1200000x1_S1200000x32_1_0_n_n_0_1_132_wf
def scatter_S100000x32_S1200000x1_S1200000x32_1_0_0_1 : ScatterDims S100000x32 S1200000x1 S1200000x32 where
  updateWindowDims := [1]
  insertedWindowDims := [0]
  scatterDimsToOperandDims := [0]
  indexVectorDim := 1
  wf := scatter_S100000x32_S1200000x1_S1200000x32_1_0_0_1_wf
def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S1024x64_S100000x1_S100000x64_1_0_0_1 : ScatterDims S1024x64 S100000x1 S100000x64 where
  updateWindowDims := [1]
  insertedWindowDims := [0]
  scatterDimsToOperandDims := [0]
  indexVectorDim := 1
  wf := scatter_S1024x64_S100000x1_S100000x64_1_0_0_1_wf
def scatter_S1024_S100000x1_S100000_n_0_0_1 : ScatterDims S1024 S100000x1 S100000 where
  updateWindowDims := []
  insertedWindowDims := [0]
  scatterDimsToOperandDims := [0]
  indexVectorDim := 1
  wf := scatter_S1024_S100000x1_S100000_n_0_0_1_wf
def dot_S1024x64_S64x10_S1024x10_1_0_0_1_n_n : DotDims S1024x64 S64x10 S1024x10 where
  lhsContracting := [1]
  rhsContracting := [0]
  lhsNonContracting := [0]
  rhsNonContracting := [1]
  lhsBatch := []
  rhsBatch := []
  wf := dot_S1024x64_S64x10_S1024x10_1_0_0_1_n_n_wf

class Facts : Prop extends Facts₀ where

variable [Facts]
-- ==== Proof.LibPlainDot.lean ====
/-
  A plain two-dimensional contraction (rows x inner times inner x columns, no batch axis) read at an index.
  At the extended reals the matrix unit's product into a zero accumulator and the host's dot product are both
  the sum, over the inner index k, of the left operand's entry (row, k) times the right operand's entry (k, column).
-/
import Idealize.ShloMosaic.Lib.ValueIdx
import Idealize.ShloMosaic.PureOps.Ideal.Laws
import Idealize.ShloMosaic.Lib.ValueLayout

noncomputable section

namespace Cert.PlainDot

open Idealize.ShloMosaic Idealize.ShloMosaic.ValueIdx

variable {M K N : Nat}

/-- The left operand is read on its row axis at the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand is read on its inner axis at the contraction index. -/
theorem lhs_inner (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand is read on its inner axis at the contraction index. -/
theorem rhs_inner (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand is read on its column axis at the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction's sum re-indexed by the inner coordinate. -/
theorem sum_contr (A : (⟨2, ![M, K]⟩ : Shape).Idx → EReal) (B : (⟨2, ![K, N]⟩ : Shape).Idx → EReal)
    (j : (⟨2, ![M, N]⟩ : Shape).Idx) :
    (∑ q : (DotDims.plain M K N).contr.Idx, A ((DotDims.plain M K N).lhsIdx j q) * B ((DotDims.plain M K N).rhsIdx j q))
      = ∑ k : Fin K, A (ix2 (j 0) k) * B (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs_row _ _
      | ⟨1, _⟩ => exact (lhs_inner _ _).trans hk)
  have er : (DotDims.plain M K N).rhsIdx j ((contrEquiv1 (DotDims.plain M K N) K rfl rfl).symm k) = ix2 k (j 1) :=
    funext fun a => Fin.ext (by
      match a with
      | ⟨0, _⟩ => exact (rhs_inner _ _).trans hk
      | ⟨1, _⟩ => exact rhs_col _ _)
  exact congrArg₂ (· * ·) (congrArg A el) (congrArg B er)

/-- The matrix unit's product into the zero accumulator, at an output index: the plain sum of products. -/
theorem matmul_zero_apply {φ₁ φ₂ : FTy} (prec : Option ContractPrecision)
    (A : FVec Ideal (⟨2, ![M, K]⟩ : Shape) φ₁) (B : FVec Ideal (⟨2, ![K, N]⟩ : Shape) φ₂) (j : (⟨2, ![M, N]⟩ : Shape).Idx) :
    FloatOps.matmul (DotDims.plain M K N) prec A B (constant (⟨2, ![M, N]⟩ : Shape) .f32 0x00000000#32) j
      = ∑ k : Fin K, A (ix2 (j 0) k) * B (ix2 k (j 1)) :=
  (Ideal.matmul_constant_zero_apply (DotDims.plain M K N) prec A B j).trans (sum_contr A B j)

/-- The host's dot product at an output index: the same sum. -/
theorem dotGeneral_apply {φ₁ φ₂ : FTy} (prec : Option ContractPrecision) (sched : HostSchedule)
    (A : FVec Ideal (⟨2, ![M, K]⟩ : Shape) φ₁) (B : FVec Ideal (⟨2, ![K, N]⟩ : Shape) φ₂) (j : (⟨2, ![M, N]⟩ : Shape).Idx) :
    FloatOps.dotGeneral (DotDims.plain M K N) prec sched A B j
      = ∑ k : Fin K, A (ix2 (j 0) k) * B (ix2 k (j 1)) :=
  (Ideal.dotGeneral_apply (DotDims.plain M K N) prec sched A B j).trans (sum_contr A B j)

/-! ## A matrix product with a row added to every row -/

/-- The matrix product of `A` and `B` with the one-row array `b` added to each of its rows: the entry at
    (r, c) is `∑ k, A (r, k) * B (k, c) + b (0, c)`. -/
def affine (A : (⟨2, ![M, K]⟩ : Shape).Idx → EReal) (B : (⟨2, ![K, N]⟩ : Shape).Idx → EReal)
    (b : (⟨2, ![1, N]⟩ : Shape).Idx → EReal) : (⟨2, ![M, N]⟩ : Shape).Idx → EReal :=
  fun j => (∑ k : Fin K, A (ix2 (j 0) k) * B (ix2 k (j 1))) + b (ix2 (0 : Fin 1) (j 1))

/-- The matrix unit's product into a zero accumulator plus a one-row array broadcast over the rows is `affine`. -/
theorem matmul_add_row_eq {φ₁ φ₂ : FTy} (prec : Option ContractPrecision)
    (A : FVec Ideal (⟨2, ![M, K]⟩ : Shape) φ₁) (B : FVec Ideal (⟨2, ![K, N]⟩ : Shape) φ₂)
    (b : FVec Ideal (⟨2, ![1, N]⟩ : Shape) .f32) (h : (⟨2, ![1, N]⟩ : Shape).Broadcasts ⟨2, ![M, N]⟩) :
    addf (matmul (DotDims.plain M K N) prec A B (constant (⟨2, ![M, N]⟩ : Shape) .f32 0x00000000#32))
        (broadcastTo (⟨2, ![M, N]⟩ : Shape) b h) = affine A B b := by
  funext j
  obtain ⟨p, q, rfl⟩ : ∃ (p : Fin M) (q : Fin N), j = ix2 p q := ⟨j 0, j 1, eq_ix2 j⟩
  show FloatOps.matmul (DotDims.plain M K N) prec A B (constant (⟨2, ![M, N]⟩ : Shape) .f32 0x00000000#32) (ix2 p q)
      + broadcastTo (⟨2, ![M, N]⟩ : Shape) b h (ix2 p q) = _
  rw [matmul_zero_apply, broadcastTo_1b_ab_apply]
  rfl

/-- `affine` followed by the rectifier: each entry's maximum with the value of the zero word. -/
def affineRelu (A : (⟨2, ![M, K]⟩ : Shape).Idx → EReal) (B : (⟨2, ![K, N]⟩ : Shape).Idx → EReal)
    (b : (⟨2, ![1, N]⟩ : Shape).Idx → EReal) : (⟨2, ![M, N]⟩ : Shape).Idx → EReal :=
  fun j => max (affine A B b j) (Ideal.ofBits .f32 0x00000000#32)

/-- The same product and row, then the entrywise maximum with a splat of the zero word, is `affineRelu`. -/
theorem matmul_add_row_max_eq {φ₁ φ₂ : FTy} (prec : Option ContractPrecision)
    (A : FVec Ideal (⟨2, ![M, K]⟩ : Shape) φ₁) (B : FVec Ideal (⟨2, ![K, N]⟩ : Shape) φ₂)
    (b : FVec Ideal (⟨2, ![1, N]⟩ : Shape) .f32) (h : (⟨2, ![1, N]⟩ : Shape).Broadcasts ⟨2, ![M, N]⟩) :
    maximumf (addf (matmul (DotDims.plain M K N) prec A B (constant (⟨2, ![M, N]⟩ : Shape) .f32 0x00000000#32))
        (broadcastTo (⟨2, ![M, N]⟩ : Shape) b h))
      (broadcast (⟨2, ![M, N]⟩ : Shape) (Scalar.ofBits (F := Ideal) .f32 0x00000000#32)) = affineRelu A B b := by
  rw [matmul_add_row_eq]
  rfl

end Cert.PlainDot

end
-- ==== Proof.Spec.lean ====
/-
  The dense stage of one graph-convolution layer, and of the final projection, as functions of whole arrays, index by index.

  A layer maps an aggregated-neighbour array A and a node-feature array X (rows x inner), two weight arrays
  Wl, Wr (inner x columns) and a one-row bias b to the array whose entry (r, c) is

      max ( (sum_k A(r,k) Wl(k,c)  +  sum_k X(r,k) Wr(k,c))  +  b(0,c) ,  0 ).

  Two spellings of it are proved equal to this function on the extended reals. One multiplies into a zero
  accumulator twice, adds the two products and then the bias row; the other adds the bias row to the first
  product before the second product is added. They differ by a re-association and a commutation of a sum of
  three extended reals, which holds without any finiteness assumption (addition of extended reals is a
  commutative monoid). Row r of the result depends on row r of A and of X only.
-/
import Idealize.ShloMosaic.Lib.ValueIdx
import Idealize.ShloMosaic.Lib.ValueLayout
import Idealize.ShloMosaic.Lib.Pipeline.Value
import Idealize.ShloMosaic.PureOps.Ideal.Laws
import proofs.«115658_j88648124990386_1_alg».proof.Proof.LibPlainDot

noncomputable section

namespace Cert.Dense

open Idealize.ShloMosaic Idealize.ShloMosaic.ValueIdx

variable {M K N : Nat}

/-- A rows-by-columns shape. -/
abbrev Mat (a b : Nat) : Shape := ⟨2, ![a, b]⟩
/-- A one-axis shape. -/
abbrev Row (n : Nat) : Shape := ⟨1, ![n]⟩

/-- The value the zero word denotes. -/
abbrev zero : EReal := Ideal.ofBits .f32 0x00000000#32

/-- A one-axis array laid out as the single row of a 1 x n array. -/
def asRow {n : Nat} (b : (Row n).Idx → EReal) : (Mat 1 n).Idx → EReal := fun j => b (ix1 (j 1))

/-- The rectified dense stage of a layer: entry (r, c) is the maximum of zero and
    (sum_k A(r,k) Wl(k,c) + sum_k X(r,k) Wr(k,c)) + b(0,c). -/
def layer (A X : (Mat M K).Idx → EReal) (Wl Wr : (Mat K N).Idx → EReal) (b : (Mat 1 N).Idx → EReal) :
    (Mat M N).Idx → EReal :=
  fun j => max (((∑ k : Fin K, A (ix2 (j 0) k) * Wl (ix2 k (j 1))) + (∑ k : Fin K, X (ix2 (j 0) k) * Wr (ix2 k (j 1))))
      + b (ix2 (0 : Fin 1) (j 1))) zero

/-- The final projection: entry (r, c) is sum_k P(r,k) W(k,c) + b(0,c). -/
def project (Pm : (Mat M K).Idx → EReal) (W : (Mat K N).Idx → EReal) (b : (Mat 1 N).Idx → EReal) :
    (Mat M N).Idx → EReal :=
  fun j => (∑ k : Fin K, Pm (ix2 (j 0) k) * W (ix2 k (j 1))) + b (ix2 (0 : Fin 1) (j 1))

/-- Two products into zero accumulators, added, then the bias row broadcast over the rows, then the maximum
    with a splat of zero: the layer. -/
theorem layer_of_products {φ₁ φ₂ : FTy} (prec : Option ContractPrecision)
    (A X : FVec Ideal (Mat M K) φ₁) (Wl Wr : FVec Ideal (Mat K N) φ₂) (b : FVec Ideal (Mat 1 N) .f32)
    (h : (Mat 1 N).Broadcasts (Mat M N)) :
    maximumf (addf (addf (matmul (DotDims.plain M K N) prec A Wl (constant (Mat M N) .f32 0x00000000#32))
          (matmul (DotDims.plain M K N) prec X Wr (constant (Mat M N) .f32 0x00000000#32)))
        (broadcastTo (Mat M N) b h))
      (broadcast (Mat M N) (Scalar.ofBits (F := Ideal) .f32 0x00000000#32)) = layer A X Wl Wr b := by
  funext j
  obtain ⟨p, q, rfl⟩ : ∃ (p : Fin M) (q : Fin N), j = ix2 p q := ⟨j 0, j 1, eq_ix2 j⟩
  show max ((FloatOps.matmul (DotDims.plain M K N) prec A Wl (constant (Mat M N) .f32 0x00000000#32) (ix2 p q)
        + FloatOps.matmul (DotDims.plain M K N) prec X Wr (constant (Mat M N) .f32 0x00000000#32) (ix2 p q))
      + broadcastTo (Mat M N) b h (ix2 p q)) zero = _
  rw [Cert.PlainDot.matmul_zero_apply, Cert.PlainDot.matmul_zero_apply, broadcastTo_1b_ab_apply]
  rfl

/-- One product into a zero accumulator plus the bias row broadcast over the rows: the projection. -/
theorem project_of_product {φ₁ φ₂ : FTy} (prec : Option ContractPrecision)
    (Pm : FVec Ideal (Mat M K) φ₁) (W : FVec Ideal (Mat K N) φ₂) (b : FVec Ideal (Mat 1 N) .f32)
    (h : (Mat 1 N).Broadcasts (Mat M N)) :
    addf (matmul (DotDims.plain M K N) prec Pm W (constant (Mat M N) .f32 0x00000000#32))
        (broadcastTo (Mat M N) b h) = project Pm W b :=
  Cert.PlainDot.matmul_add_row_eq prec Pm W b h

/-- A one-axis array broadcast along axis 1 into a single row is that array laid out as a row. -/
theorem rowBroadcast_eq {n : Nat} (b : (Row n).Idx → EReal) (h : (Row n).BroadcastsInDim (Mat 1 n) ![1]) :
    broadcastInDim (Mat 1 n) ![1] h b = asRow b := by
  funext j
  refine broadcastInDim_apply _ h b j (ix1 (j 1)) (fun a => ?_)
  match a with
  | ⟨0, _⟩ =>
    show (j 1).val = if n = 1 then 0 else (j 1).val
    split
    · rename_i hn; subst hn; have hj : (j 1).val < 1 := (j 1).isLt; omega
    · rfl

/-- A one-axis array reshaped into a single row is that array laid out as a row (same row-major position). -/
theorem rowReshape_eq {n : Nat} (b : (Row n).Idx → EReal) (h : (Row n).ShapeCasts (Mat 1 n)) :
    shapeCast (Mat 1 n) b h = asRow b := by
  funext j
  refine shapeCast_apply b h j (ix1 (j 1)) ?_
  rw [Shape.rowMajor_val_one, Shape.rowMajor_val_two]
  have h0 : (j 0).val < 1 := (j 0).isLt
  show (j 1).val = (j 0).val * n + (j 1).val
  have e0 : (j 0).val = 0 := by omega
  rw [e0]; omega

/-- A one-row array broadcast over the rows of a rows-by-columns array reads its row at the column. -/
theorem rowsBroadcast_apply {α : Type} (v : (Mat 1 N).Idx → α) (h : (Mat 1 N).BroadcastsInDim (Mat M N) ![0, 1])
    (p : Fin M) (q : Fin N) : broadcastInDim (Mat M N) ![0, 1] h v (ix2 p q) = v (ix2 (0 : Fin 1) q) := by
  refine broadcastInDim_apply _ h v (ix2 p q) (ix2 (0 : Fin 1) q) (fun a => ?_)
  match a with
  | ⟨0, _⟩ => show 0 = if (1 : Nat) = 1 then 0 else p.val; rw [if_pos rfl]
  | ⟨1, _⟩ =>
    show q.val = if N = 1 then 0 else q.val
    split
    · rename_i hn; subst hn; have := q.isLt; omega
    · rfl

/-- The host's spelling: the first dot product, plus the bias (a one-axis array made a row, then broadcast over
    the rows), plus the second dot product, then the maximum with a splat of the zero constant: the layer. -/
theorem layer_of_dots {φ₁ φ₂ : FTy} (prec : Option ContractPrecision)
    (A X : FVec Ideal (Mat M K) φ₁) (Wl Wr : FVec Ideal (Mat K N) φ₂) (b : FVec Ideal (Row N) .f32)
    (h₁ : (Row N).BroadcastsInDim (Mat 1 N) ![1]) (h₂ : (Mat 1 N).BroadcastsInDim (Mat M N) ![0, 1])
    (h₀ : (⟨0, ![]⟩ : Shape).BroadcastsInDim (Mat M N) ![]) :
    maximumf (addf (addf (Host.dotGeneral (DotDims.plain M K N) prec A Wl)
          (broadcastInDim (Mat M N) ![0, 1] h₂ (broadcastInDim (Mat 1 N) ![1] h₁ b)))
        (Host.dotGeneral (DotDims.plain M K N) prec X Wr))
      (broadcastInDim (Mat M N) ![] h₀ (constant (F := Ideal) (⟨0, ![]⟩ : Shape) .f32 0x00000000#32))
      = layer A X Wl Wr (asRow b) := by
  funext j
  obtain ⟨p, q, rfl⟩ : ∃ (p : Fin M) (q : Fin N), j = ix2 p q := ⟨j 0, j 1, eq_ix2 j⟩
  show max ((Host.dotGeneral (DotDims.plain M K N) prec A Wl (ix2 p q)
        + broadcastInDim (Mat M N) ![0, 1] h₂ (broadcastInDim (Mat 1 N) ![1] h₁ b) (ix2 p q))
      + Host.dotGeneral (DotDims.plain M K N) prec X Wr (ix2 p q))
      (broadcastInDim (Mat M N) ![] h₀ (constant (F := Ideal) (⟨0, ![]⟩ : Shape) .f32 0x00000000#32) (ix2 p q)) = _
  rw [rowsBroadcast_apply, rowBroadcast_eq,
    broadcastInDim_apply _ h₀ (constant (F := Ideal) (⟨0, ![]⟩ : Shape) .f32 0x00000000#32) (ix2 p q) (fun a => a.elim0)
      (fun a => a.elim0)]
  simp only [Host.dotGeneral]
  rw [Cert.PlainDot.dotGeneral_apply, Cert.PlainDot.dotGeneral_apply]
  show max (((∑ k : Fin K, A (ix2 p k) * Wl (ix2 k q)) + asRow b (ix2 (0 : Fin 1) q)) + (∑ k : Fin K, X (ix2 p k) * Wr (ix2 k q))) zero
    = max (((∑ k : Fin K, A (ix2 p k) * Wl (ix2 k q)) + (∑ k : Fin K, X (ix2 p k) * Wr (ix2 k q))) + asRow b (ix2 (0 : Fin 1) q)) zero
  rw [add_right_comm]

/-- The host's spelling of the projection: the dot product plus the bias made a row and broadcast over the rows. -/
theorem project_of_dot {φ₁ φ₂ : FTy} (prec : Option ContractPrecision)
    (Pm : FVec Ideal (Mat M K) φ₁) (W : FVec Ideal (Mat K N) φ₂) (b : FVec Ideal (Row N) .f32)
    (h₁ : (Row N).BroadcastsInDim (Mat 1 N) ![1]) (h₂ : (Mat 1 N).BroadcastsInDim (Mat M N) ![0, 1]) :
    addf (Host.dotGeneral (DotDims.plain M K N) prec Pm W)
        (broadcastInDim (Mat M N) ![0, 1] h₂ (broadcastInDim (Mat 1 N) ![1] h₁ b)) = project Pm W (asRow b) := by
  funext j
  obtain ⟨p, q, rfl⟩ : ∃ (p : Fin M) (q : Fin N), j = ix2 p q := ⟨j 0, j 1, eq_ix2 j⟩
  show Host.dotGeneral (DotDims.plain M K N) prec Pm W (ix2 p q)
      + broadcastInDim (Mat M N) ![0, 1] h₂ (broadcastInDim (Mat 1 N) ![1] h₁ b) (ix2 p q) = _
  rw [rowsBroadcast_apply, rowBroadcast_eq]
  simp only [Host.dotGeneral]
  rw [Cert.PlainDot.dotGeneral_apply]
  rfl

/-- Row-locality of the layer: its entry at (r', c') over one set of arrays is its entry at (r, c) over another
    when row r' of the first pair of left operands is row r of the second, column c' of the weights is column c,
    and the bias agrees at the column. This is what lets a block of rows be computed from that block alone. -/
theorem layer_congr {M' : Nat} {N' : Nat}
    (A X : (Mat M K).Idx → EReal) (Wl Wr : (Mat K N).Idx → EReal) (b : (Mat 1 N).Idx → EReal)
    (a x : (Mat M' K).Idx → EReal) (wl wr : (Mat K N').Idx → EReal) (b' : (Mat 1 N').Idx → EReal)
    (j : (Mat M' N').Idx) (i : (Mat M N).Idx)
    (ha : ∀ k, a (ix2 (j 0) k) = A (ix2 (i 0) k)) (hx : ∀ k, x (ix2 (j 0) k) = X (ix2 (i 0) k))
    (hwl : ∀ k, wl (ix2 k (j 1)) = Wl (ix2 k (i 1))) (hwr : ∀ k, wr (ix2 k (j 1)) = Wr (ix2 k (i 1)))
    (hb : b' (ix2 (0 : Fin 1) (j 1)) = b (ix2 (0 : Fin 1) (i 1))) :
    layer a x wl wr b' j = layer A X Wl Wr b i := by
  unfold layer
  simp only [ha, hx, hwl, hwr, hb]

/-- Row-locality of the projection. -/
theorem project_congr {M' : Nat} {N' : Nat}
    (Pm : (Mat M K).Idx → EReal) (W : (Mat K N).Idx → EReal) (b : (Mat 1 N).Idx → EReal)
    (pm : (Mat M' K).Idx → EReal) (w : (Mat K N').Idx → EReal) (b' : (Mat 1 N').Idx → EReal)
    (j : (Mat M' N').Idx) (i : (Mat M N).Idx)
    (hp : ∀ k, pm (ix2 (j 0) k) = Pm (ix2 (i 0) k)) (hw : ∀ k, w (ix2 k (j 1)) = W (ix2 k (i 1)))
    (hb : b' (ix2 (0 : Fin 1) (j 1)) = b (ix2 (0 : Fin 1) (i 1))) :
    project pm w b' j = project Pm W b i := by
  unfold project
  simp only [hp, hw, hb]

end Cert.Dense

end
-- ==== Proof.Network.lean ====
/-
  The whole network as one function of its thirteen arguments.

  Both programs run the same irregular host steps: the embedding rows selected by the node ids (a negative id
  counted from the end), the mean over each node's incoming edges (the gathered source rows summed per target node,
  divided by the larger of the edge count and one), and the mean over each graph's nodes. They are named here once,
  in the operations' own spelling, and never opened: the two programs differ only in the dense stages between them,
  which are the layer and the projection of the specification.
-/
import proofs.«115658_j88648124990386_1_alg».proof.KernelIdeal
import proofs.«115658_j88648124990386_1_alg».proof.Proof.Gen.KernelIdeal
import proofs.«115658_j88648124990386_1_alg».proof.Proof.Spec

noncomputable section

namespace Cert.Network

open Cert.KernelIdeal Cert.KernelIdeal.Facts₀ Idealize.ShloMosaic
open Cert.Dense

/-- An integer array of a shape. -/
abbrev IArr (s : Shape) : Type := (⟨s, .i32⟩ : BufTy).Contents (Elt Ideal)
/-- A float array of a shape. -/
abbrev FArr (s : Shape) : Type := FVec Ideal s .f32

/-- The embedding rows the node ids select; an id below zero has the table's row count added first. -/
def embedRows (E : FArr S10000x32) (ids : IArr S100000) : FArr S100000x32 :=
  Host.gather gather_S10000x32_S100000x1_S100000x32_1_0_n_n_0_1_132 E
    (broadcastInDim S100000x1 ![0] bcast_S100000_S100000x1_0
      (select (cmpi .slt ids (broadcastInDim S100000 ![] bcast_S_S100000 (constantI S_ 32 0#32)))
        (addi ids (broadcastInDim S100000 ![] bcast_S_S100000 (constantI S_ 32 10000#32))) ids))

/-- The edge sources with a negative one counted from the end, as a column of indices. -/
def sourceColumn (src : IArr S1200000) : IArr S1200000x1 :=
  broadcastInDim S1200000x1 ![0] bcast_S1200000_S1200000x1_0
    (select (cmpi .slt src (broadcastInDim S1200000 ![] bcast_S_S1200000 (constantI S_ 32 0#32)))
      (addi src (broadcastInDim S1200000 ![] bcast_S_S1200000 (constantI S_ 32 100000#32))) src)

/-- Per target node, the larger of its incoming-edge count and one. -/
def degree (dst : IArr S1200000) : FArr S100000 :=
  maximumf
    (Host.scatterAdd scatter_S100000_S1200000x1_S1200000_n_0_0_1
      (broadcastInDim S100000 ![] bcast_S_S100000 (constant S_ .f32 0x00000000#32))
      (broadcastInDim S1200000x1 ![0] bcast_S1200000_S1200000x1_0 dst)
      (broadcastInDim S1200000 ![] bcast_S_S1200000 (constant S_ .f32 0x3F800000#32)))
    (broadcastInDim S100000 ![] bcast_S_S100000 (constant S_ .f32 0x3F800000#32))

/-- The mean of the source rows over each node's incoming edges, 32 features. -/
def meanNeighbours32 (x : FArr S100000x32) (src dst : IArr S1200000) : FArr S100000x32 :=
  Host.divf
    (Host.scatterAdd scatter_S100000x32_S1200000x1_S1200000x32_1_0_0_1
      (broadcastInDim S100000x32 ![] bcast_S_S100000x32 (constant S_ .f32 0x00000000#32))
      (broadcastInDim S1200000x1 ![0] bcast_S1200000_S1200000x1_0 dst)
      (Host.gather gather_S100000x32_S1200000x1_S1200000x32_1_0_n_n_0_1_132 x (sourceColumn src)))
    (broadcastInDim S100000x32 ![0, 1] bcast_S100000x1_S100000x32_0_1
      (broadcastInDim S100000x1 ![0] bcast_S100000_S100000x1_0 (degree dst)))

/-- The mean of the source rows over each node's incoming edges, 64 features. -/
def meanNeighbours64 (x : FArr S100000x64) (src dst : IArr S1200000) : FArr S100000x64 :=
  Host.divf
    (Host.scatterAdd scatter_S100000x64_S1200000x1_S1200000x64_1_0_0_1
      (broadcastInDim S100000x64 ![] bcast_S_S100000x64 (constant S_ .f32 0x00000000#32))
      (broadcastInDim S1200000x1 ![0] bcast_S1200000_S1200000x1_0 dst)
      (Host.gather gather_S100000x64_S1200000x1_S1200000x64_1_0_n_n_0_1_164 x (sourceColumn src)))
    (broadcastInDim S100000x64 ![0, 1] bcast_S100000x1_S100000x64_0_1
      (broadcastInDim S100000x1 ![0] bcast_S100000_S100000x1_0 (degree dst)))

/-- The mean of the node rows over each graph's nodes. -/
def meanPool (x : FArr S100000x64) (batch : IArr S100000) : FArr S1024x64 :=
  Host.divf
    (Host.scatterAdd scatter_S1024x64_S100000x1_S100000x64_1_0_0_1
      (broadcastInDim S1024x64 ![] bcast_S_S1024x64 (constant S_ .f32 0x00000000#32))
      (broadcastInDim S100000x1 ![0] bcast_S100000_S100000x1_0 batch) x)
    (broadcastInDim S1024x64 ![0, 1] bcast_S1024x1_S1024x64_0_1
      (broadcastInDim S1024x1 ![0] bcast_S1024_S1024x1_0
        (maximumf
          (Host.scatterAdd scatter_S1024_S100000x1_S100000_n_0_0_1
            (broadcastInDim S1024 ![] bcast_S_S1024 (constant S_ .f32 0x00000000#32))
            (broadcastInDim S100000x1 ![0] bcast_S100000_S100000x1_0 batch)
            (broadcastInDim S100000 ![] bcast_S_S100000 (constant S_ .f32 0x3F800000#32)))
          (broadcastInDim S1024 ![] bcast_S_S1024 (constant S_ .f32 0x3F800000#32)))))

/-- The node features after the first layer. -/
def hidden1 (ids : IArr S100000) (src dst : IArr S1200000) (E : FArr S10000x32)
    (W1l : FArr S32x64) (b1 : FArr S64) (W1r : FArr S32x64) : FArr S100000x64 :=
  layer (M := 100000) (K := 32) (N := 64) (meanNeighbours32 (embedRows E ids) src dst) (embedRows E ids) W1l W1r (asRow b1)

/-- The node features after the second layer. -/
def hidden2 (ids : IArr S100000) (src dst : IArr S1200000) (E : FArr S10000x32)
    (W1l : FArr S32x64) (b1 : FArr S64) (W1r : FArr S32x64)
    (W2l : FArr S64x64) (b2 : FArr S64) (W2r : FArr S64x64) : FArr S100000x64 :=
  layer (M := 100000) (K := 64) (N := 64) (meanNeighbours64 (hidden1 ids src dst E W1l b1 W1r) src dst)
    (hidden1 ids src dst E W1l b1 W1r) W2l W2r (asRow b2)

/-- The network's output: the projection of the per-graph mean of the second layer's features. -/
def output (ids : IArr S100000) (src dst : IArr S1200000) (batch : IArr S100000) (E : FArr S10000x32)
    (W1l : FArr S32x64) (b1 : FArr S64) (W1r : FArr S32x64)
    (W2l : FArr S64x64) (b2 : FArr S64) (W2r : FArr S64x64) (Wo : FArr S64x10) (bo : FArr S10) : FArr S1024x10 :=
  project (M := 1024) (K := 64) (N := 10) (meanPool (hidden2 ids src dst E W1l b1 W1r W2l b2 W2r) batch) Wo (asRow bo)

end Cert.Network

end
-- ==== Proof.Region0.lean ====
/-
  The first layer's dense stage over its ten blocks of rows.

  The region stages, at grid point t, rows 10000 t ... 10000 t + 9999 of the aggregated array and of the feature
  array, the two 32 x 64 weight arrays and the bias row whole, and writes back rows 10000 t ... 10000 t + 9999 of
  the result. Row r of the layer depends only on row r of its two left operands, so what point t writes back is
  block t of the layer of the WHOLE arrays; the ten blocks tile the 100000 rows, so the result array ends holding
  the layer of the arrays the region found.
-/
import proofs.«115658_j88648124990386_1_alg».proof.Proof.Gen.KernelIdeal.Frame
import proofs.«115658_j88648124990386_1_alg».proof.Proof.Spec
import Idealize.ShloMosaic.Lib.Pipeline.Value

set_option maxRecDepth 16384

noncomputable section

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat)
open Cert.Dense

variable (V : (c : Dev nD) → (b : Ref sig .tc) → Buf (Elt Ideal) ((c : Thread nD τ).loc b))

theorem zero_offsets : (![0, 0] : Fin 2 → Nat) = fun _ => 0 := funext fun a => by fin_cases a <;> rfl

/-- The contraction the body performs is the plain rows-by-columns one. -/
theorem contraction_plain : dot_S10000x32_S32x64_S10000x64_1_0_0_1_n_n = DotDims.plain 10000 32 64 := rfl

/-- The body's stored value, as a function of the five blocks it loads, is the layer of those blocks. -/
theorem stored_eq (a x : Vec Ideal S10000x32 .f32) (wl wr : Vec Ideal S32x64 .f32) (b : Vec Ideal S1x64 .f32) :
    k0_pay1 (F := Ideal) a x wl wr b = layer (M := 10000) (K := 32) (N := 64) a x wl wr b := by
  unfold k0_pay1
  simp only [shapeCast_self]
  rw [contraction_plain]
  exact layer_of_products none a x wl wr b _

/-- The printed index maps over the grid: the row blocks move with the point, everything else stays at block 0. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What point t writes back is block t of the layer of the arrays the region found. -/
theorem written_back (c : Dev nD) (t : Fin cfg0.N) :
    (dat0 V c).flushed 5 t = ((cfg0.win 5).blk t).view.read (Elt Ideal)
      (layer (M := 100000) (K := 32) (N := 64) (V c main_v25) (V c main_v6) (V c main_arg5) (V c main_arg7) (V c main_call0_v0)) := by
  show (cfg0.win 5).cut (grid0.coords t) ((dat0 V c).after 5 t) = _
  rw [after0_5]
  unfold out0_5
  rw [View.canon_unit_zero zero_offsets]
  simp only [View.ld_unit_zero (S := S10000x32) zero_offsets, View.ld_unit_zero (S := S32x64) zero_offsets,
    View.ld_unit_zero (S := S1x64) zero_offsets]
  rw [stored_eq]
  obtain ⟨e00, e01, e10, e11, e20, e21, e30, e31, e40, e41, e50, e51⟩ := index_facts t
  funext j
  show layer (iblk0 V c 0 t) (iblk0 V c 1 t) (iblk0 V c 2 t) (iblk0 V c 4 t) (iblk0 V c 3 t) j
      = layer (M := 100000) (K := 32) (N := 64) (V c main_v25) (V c main_v6) (V c main_arg5) (V c main_arg7) (V c main_call0_v0)
          (((cfg0.win 5).blk t).view.emb j)
  refine layer_congr _ _ _ _ _ _ _ _ _ _ j _ (fun k => ?_) (fun k => ?_) (fun k => ?_) (fun k => ?_) ?_
  · show V c main_v25 (((cfg0.win 0).blk t).view.emb (ix2 (j 0) k)) = V c main_v25 (ix2 (((cfg0.win 5).blk t).view.emb j 0) k)
    refine congrArg (V c main_v25) (funext fun a => Fin.ext ?_)
    match a with
    | ⟨0, _⟩ => show win0_0.index t (0 : Fin 2) * 10000 + 1 * (j 0).val = win0_5.index t (0 : Fin 2) * 10000 + 1 * (j 0).val; omega
    | ⟨1, _⟩ => show win0_0.index t (1 : Fin 2) * 32 + 1 * k.val = k.val; omega
  · show V c main_v6 (((cfg0.win 1).blk t).view.emb (ix2 (j 0) k)) = V c main_v6 (ix2 (((cfg0.win 5).blk t).view.emb j 0) k)
    refine congrArg (V c main_v6) (funext fun a => Fin.ext ?_)
    match a with
    | ⟨0, _⟩ => show win0_1.index t (0 : Fin 2) * 10000 + 1 * (j 0).val = win0_5.index t (0 : Fin 2) * 10000 + 1 * (j 0).val; omega
    | ⟨1, _⟩ => show win0_1.index t (1 : Fin 2) * 32 + 1 * k.val = k.val; omega
  · show V c main_arg5 (((cfg0.win 2).blk t).view.emb (ix2 k (j 1))) = V c main_arg5 (ix2 k (((cfg0.win 5).blk t).view.emb j 1))
    refine congrArg (V c main_arg5) (funext fun a => Fin.ext ?_)
    match a with
    | ⟨0, _⟩ => show win0_2.index t (0 : Fin 2) * 32 + 1 * k.val = k.val; omega
    | ⟨1, _⟩ => show win0_2.index t (1 : Fin 2) * 64 + 1 * (j 1).val = win0_5.index t (1 : Fin 2) * 64 + 1 * (j 1).val; omega
  · show V c main_arg7 (((cfg0.win 4).blk t).view.emb (ix2 k (j 1))) = V c main_arg7 (ix2 k (((cfg0.win 5).blk t).view.emb j 1))
    refine congrArg (V c main_arg7) (funext fun a => Fin.ext ?_)
    match a with
    | ⟨0, _⟩ => show win0_4.index t (0 : Fin 2) * 32 + 1 * k.val = k.val; omega
    | ⟨1, _⟩ => show win0_4.index t (1 : Fin 2) * 64 + 1 * (j 1).val = win0_5.index t (1 : Fin 2) * 64 + 1 * (j 1).val; omega
  · show V c main_call0_v0 (((cfg0.win 3).blk t).view.emb (ix2 (0 : Fin 1) (j 1)))
        = V c main_call0_v0 (ix2 (0 : Fin 1) (((cfg0.win 5).blk t).view.emb j 1))
    refine congrArg (V c main_call0_v0) (funext fun a => Fin.ext ?_)
    match a with
    | ⟨0, _⟩ => show win0_3.index t (0 : Fin 2) * 1 + 1 * 0 = 0; omega
    | ⟨1, _⟩ => show win0_3.index t (1 : Fin 2) * 64 + 1 * (j 1).val = win0_5.index t (1 : Fin 2) * 64 + 1 * (j 1).val; omega

/-- An index of the result array is in point t's block iff its row is one of the block's 10000 and its column is any. -/
theorem mem_block (t : Fin cfg0.N) (i : S100000x64.Idx) :
    i ∈ ((cfg0.win 5).blk t).view.set ↔ ∀ a : Fin 2, win0_5.index t a * S10000x64.size a ≤ (i a).val ∧ (i a).val < win0_5.index t a * S10000x64.size a + S10000x64.size a := by
  show i ∈ ((View.whole main_v26).slice (win0_5.rect t)).set ↔ _
  rw [View.set_slice_whole, Rect.mem_set_unit]
  exact Iff.rfl

/-- Every index of the result array lies in the block of the point its row falls in. -/
theorem covered (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  have hN : (i 0).val / 10000 < grid0.N := by rw [N_0]; omega
  refine ⟨⟨(i 0).val / 10000, hN⟩, flush0_5 _, ?_⟩
  obtain ⟨-, -, -, -, -, -, -, -, -, -, e50, e51⟩ := index_facts ⟨(i 0).val / 10000, hN⟩
  rw [mem_block]
  intro a
  match a with
  | ⟨0, _⟩ =>
    show win0_5.index ⟨(i 0).val / 10000, hN⟩ (0 : Fin 2) * 10000 ≤ (i 0).val ∧ (i 0).val < win0_5.index ⟨(i 0).val / 10000, hN⟩ (0 : Fin 2) * 10000 + 10000
    rw [e50]; show (i 0).val / 10000 * 10000 ≤ (i 0).val ∧ (i 0).val < (i 0).val / 10000 * 10000 + 10000; omega
  | ⟨1, _⟩ =>
    show win0_5.index ⟨(i 0).val / 10000, hN⟩ (1 : Fin 2) * 64 ≤ (i 1).val ∧ (i 1).val < win0_5.index ⟨(i 0).val / 10000, hN⟩ (1 : Fin 2) * 64 + 64
    rw [e51]; omega

/-- THE RESULT ARRAY after the region: the layer of the arrays the region found. -/
theorem result (c : Dev nD) :
    (dat0 V c).arrAt 5 cfg0.N
      = layer (M := 100000) (K := 32) (N := 64) (V c main_v25) (V c main_v6) (V c main_arg5) (V c main_arg7) (V c main_call0_v0) :=
  (dat0 V c).arrAt_eq_of_cover 5 _ (fun t _ => written_back V c t) covered

end Cert.KernelIdeal.Region0

end
-- ==== Proof.Region1.lean ====
/-
  The second layer's dense stage over its ten blocks of rows.

  The region stages, at grid point t, rows 10000 t ... 10000 t + 9999 of the aggregated array and of the feature
  array, the two 64 x 64 weight arrays and the bias row whole, and writes back rows 10000 t ... 10000 t + 9999 of
  the result. Row r of the layer depends only on row r of its two left operands, so what point t writes back is
  block t of the layer of the WHOLE arrays; the ten blocks tile the 100000 rows, so the result array ends holding
  the layer of the arrays the region found.
-/
import proofs.«115658_j88648124990386_1_alg».proof.Proof.Gen.KernelIdeal.Frame
import proofs.«115658_j88648124990386_1_alg».proof.Proof.Spec
import Idealize.ShloMosaic.Lib.Pipeline.Value

set_option maxRecDepth 16384

noncomputable section

namespace Cert.KernelIdeal.Region1

open Cert.KernelIdeal Cert.KernelIdeal.Gen Idealize.ShloMosaic Idealize.ShloMosaic.TcCoe Idealize.SL.Sem
open Idealize.ShloMosaic.ValueIdx
open Idealize.ShloMosaic.Pipeline (Dat)
open Cert.Dense

variable (V : (c : Dev nD) → (b : Ref sig .tc) → Buf (Elt Ideal) ((c : Thread nD τ).loc b))

theorem zero_offsets : (![0, 0] : Fin 2 → Nat) = fun _ => 0 := funext fun a => by fin_cases a <;> rfl

/-- The contraction the body performs is the plain rows-by-columns one. -/
theorem contraction_plain : dot_S10000x64_S64x64_S10000x64_1_0_0_1_n_n = DotDims.plain 10000 64 64 := rfl

/-- The body's stored value, as a function of the five blocks it loads, is the layer of those blocks. -/
theorem stored_eq (a x : Vec Ideal S10000x64 .f32) (wl wr : Vec Ideal S64x64 .f32) (b : Vec Ideal S1x64 .f32) :
    k1_pay1 (F := Ideal) a x wl wr b = layer (M := 10000) (K := 64) (N := 64) a x wl wr b := by
  unfold k1_pay1
  simp only [shapeCast_self]
  rw [contraction_plain]
  exact layer_of_products none a x wl wr b _

/-- The printed index maps over the grid: the row blocks move with the point, everything else stays at block 0. -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What point t writes back is block t of the layer of the arrays the region found. -/
theorem written_back (c : Dev nD) (t : Fin cfg1.N) :
    (dat1 V c).flushed 5 t = ((cfg1.win 5).blk t).view.read (Elt Ideal)
      (layer (M := 100000) (K := 64) (N := 64) (V c main_v45) (V c main_v26) (V c main_arg8) (V c main_arg10) (V c main_call1_v0)) := by
  show (cfg1.win 5).cut (grid1.coords t) ((dat1 V c).after 5 t) = _
  rw [after1_5]
  unfold out1_5
  rw [View.canon_unit_zero zero_offsets]
  simp only [View.ld_unit_zero (S := S10000x64) zero_offsets, View.ld_unit_zero (S := S64x64) zero_offsets,
    View.ld_unit_zero (S := S1x64) zero_offsets]
  rw [stored_eq]
  obtain ⟨e00, e01, e10, e11, e20, e21, e30, e31, e40, e41, e50, e51⟩ := index_facts t
  funext j
  show layer (iblk1 V c 0 t) (iblk1 V c 1 t) (iblk1 V c 2 t) (iblk1 V c 4 t) (iblk1 V c 3 t) j
      = layer (M := 100000) (K := 64) (N := 64) (V c main_v45) (V c main_v26) (V c main_arg8) (V c main_arg10) (V c main_call1_v0)
          (((cfg1.win 5).blk t).view.emb j)
  refine layer_congr _ _ _ _ _ _ _ _ _ _ j _ (fun k => ?_) (fun k => ?_) (fun k => ?_) (fun k => ?_) ?_
  · show V c main_v45 (((cfg1.win 0).blk t).view.emb (ix2 (j 0) k)) = V c main_v45 (ix2 (((cfg1.win 5).blk t).view.emb j 0) k)
    refine congrArg (V c main_v45) (funext fun a => Fin.ext ?_)
    match a with
    | ⟨0, _⟩ => show win1_0.index t (0 : Fin 2) * 10000 + 1 * (j 0).val = win1_5.index t (0 : Fin 2) * 10000 + 1 * (j 0).val; omega
    | ⟨1, _⟩ => show win1_0.index t (1 : Fin 2) * 64 + 1 * k.val = k.val; omega
  · show V c main_v26 (((cfg1.win 1).blk t).view.emb (ix2 (j 0) k)) = V c main_v26 (ix2 (((cfg1.win 5).blk t).view.emb j 0) k)
    refine congrArg (V c main_v26) (funext fun a => Fin.ext ?_)
    match a with
    | ⟨0, _⟩ => show win1_1.index t (0 : Fin 2) * 10000 + 1 * (j 0).val = win1_5.index t (0 : Fin 2) * 10000 + 1 * (j 0).val; omega
    | ⟨1, _⟩ => show win1_1.index t (1 : Fin 2) * 64 + 1 * k.val = k.val; omega
  · show V c main_arg8 (((cfg1.win 2).blk t).view.emb (ix2 k (j 1))) = V c main_arg8 (ix2 k (((cfg1.win 5).blk t).view.emb j 1))
    refine congrArg (V c main_arg8) (funext fun a => Fin.ext ?_)
    match a with
    | ⟨0, _⟩ => show win1_2.index t (0 : Fin 2) * 64 + 1 * k.val = k.val; omega
    | ⟨1, _⟩ => show win1_2.index t (1 : Fin 2) * 64 + 1 * (j 1).val = win1_5.index t (1 : Fin 2) * 64 + 1 * (j 1).val; omega
  · show V c main_arg10 (((cfg1.win 4).blk t).view.emb (ix2 k (j 1))) = V c main_arg10 (ix2 k (((cfg1.win 5).blk t).view.emb j 1))
    refine congrArg (V c main_arg10) (funext fun a => Fin.ext ?_)
    match a with
    | ⟨0, _⟩ => show win1_4.index t (0 : Fin 2) * 64 + 1 * k.val = k.val; omega
    | ⟨1, _⟩ => show win1_4.index t (1 : Fin 2) * 64 + 1 * (j 1).val = win1_5.index t (1 : Fin 2) * 64 + 1 * (j 1).val; omega
  · show V c main_call1_v0 (((cfg1.win 3).blk t).view.emb (ix2 (0 : Fin 1) (j 1)))
        = V c main_call1_v0 (ix2 (0 : Fin 1) (((cfg1.win 5).blk t).view.emb j 1))
    refine congrArg (V c main_call1_v0) (funext fun a => Fin.ext ?_)
    match a with
    | ⟨0, _⟩ => show win1_3.index t (0 : Fin 2) * 1 + 1 * 0 = 0; omega
    | ⟨1, _⟩ => show win1_3.index t (1 : Fin 2) * 64 + 1 * (j 1).val = win1_5.index t (1 : Fin 2) * 64 + 1 * (j 1).val; omega

/-- An index of the result array is in point t's block iff its row is one of the block's 10000 and its column is any. -/
theorem mem_block (t : Fin cfg1.N) (i : S100000x64.Idx) :
    i ∈ ((cfg1.win 5).blk t).view.set ↔ ∀ a : Fin 2, win1_5.index t a * S10000x64.size a ≤ (i a).val ∧ (i a).val < win1_5.index t a * S10000x64.size a + S10000x64.size a := by
  show i ∈ ((View.whole main_v46).slice (win1_5.rect t)).set ↔ _
  rw [View.set_slice_whole, Rect.mem_set_unit]
  exact Iff.rfl

/-- Every index of the result array lies in the block of the point its row falls in. -/
theorem covered (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  have hN : (i 0).val / 10000 < grid1.N := by rw [N_1]; omega
  refine ⟨⟨(i 0).val / 10000, hN⟩, flush1_5 _, ?_⟩
  obtain ⟨-, -, -, -, -, -, -, -, -, -, e50, e51⟩ := index_facts ⟨(i 0).val / 10000, hN⟩
  rw [mem_block]
  intro a
  match a with
  | ⟨0, _⟩ =>
    show win1_5.index ⟨(i 0).val / 10000, hN⟩ (0 : Fin 2) * 10000 ≤ (i 0).val ∧ (i 0).val < win1_5.index ⟨(i 0).val / 10000, hN⟩ (0 : Fin 2) * 10000 + 10000
    rw [e50]; show (i 0).val / 10000 * 10000 ≤ (i 0).val ∧ (i 0).val < (i 0).val / 10000 * 10000 + 10000; omega
  | ⟨1, _⟩ =>
    show win1_5.index ⟨(i 0).val / 10000, hN⟩ (1 : Fin 2) * 64 ≤ (i 1).val ∧ (i 1).val < win1_5.index ⟨(i 0).val / 10000, hN⟩ (1 : Fin 2) * 64 + 64
    rw [e51]; omega

/-- THE RESULT ARRAY after the region: the layer of the arrays the region found. -/
theorem result (c : Dev nD) :
    (dat1 V c).arrAt 5 cfg1.N
      = layer (M := 100000) (K := 64) (N := 64) (V c main_v45) (V c main_v26) (V c main_arg8) (V c main_arg10) (V c main_call1_v0) :=
  (dat1 V c).arrAt_eq_of_cover 5 _ (fun t _ => written_back V c t) covered

end Cert.KernelIdeal.Region1

end
-- ==== Proof.Region2.lean ====
/-
  The final projection, one grid point.

  The region stages the pooled array (1024 x 64), the output weights (64 x 10) and the bias row whole, and writes
  the 1024 x 10 result back whole: its single block is the whole array, so the result array ends holding the
  projection of the arrays the region found.
-/
import proofs.«115658_j88648124990386_1_alg».proof.Proof.Gen.KernelIdeal.Frame
import proofs.«115658_j88648124990386_1_alg».proof.Proof.Spec
import Idealize.ShloMosaic.Lib.Pipeline.Value

set_option maxRecDepth 16384

noncomputable section

namespace Cert.KernelIdeal.Region2

open Cert.KernelIdeal Cert.KernelIdeal.Gen Idealize.ShloMosaic Idealize.ShloMosaic.TcCoe Idealize.SL.Sem
open Idealize.ShloMosaic.ValueIdx
open Idealize.ShloMosaic.Pipeline (Dat)
open Cert.Dense

variable (V : (c : Dev nD) → (b : Ref sig .tc) → Buf (Elt Ideal) ((c : Thread nD τ).loc b))

theorem zero_offsets : (![0, 0] : Fin 2 → Nat) = fun _ => 0 := funext fun a => by fin_cases a <;> rfl

/-- The contraction the body performs is the plain rows-by-columns one. -/
theorem contraction_plain : dot_S1024x64_S64x10_S1024x10_1_0_0_1_n_n = DotDims.plain 1024 64 10 := rfl

/-- The body's stored value, as a function of the three blocks it loads, is the projection of those blocks. -/
theorem stored_eq (p : Vec Ideal S1024x64 .f32) (w : Vec Ideal S64x10 .f32) (b : Vec Ideal S1x10 .f32) :
    k2_pay1 (F := Ideal) p w b = project (M := 1024) (K := 64) (N := 10) p w b := by
  unfold k2_pay1
  simp only [shapeCast_self]
  rw [contraction_plain]
  exact project_of_product none p w b _

/-- The printed index maps: every window sits at block 0 on both axes. -/
theorem index_facts : ∀ t : Fin cfg2.N,
    win2_0.index t (0 : Fin 2) = 0 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0 :=
  (by decide +kernel : ∀ t : Fin grid2.N, _)

/-- What the point writes back is the (whole) block of the projection of the arrays the region found. -/
theorem written_back (c : Dev nD) (t : Fin cfg2.N) :
    (dat2 V c).flushed 3 t = ((cfg2.win 3).blk t).view.read (Elt Ideal)
      (project (M := 1024) (K := 64) (N := 10) (V c main_v58) (V c main_arg11) (V c main_call2_v0)) := by
  show (cfg2.win 3).cut (grid2.coords t) ((dat2 V c).after 3 t) = _
  rw [after2_3]
  unfold out2_3
  rw [View.canon_unit_zero zero_offsets]
  simp only [View.ld_unit_zero (S := S1024x64) zero_offsets, View.ld_unit_zero (S := S64x10) zero_offsets,
    View.ld_unit_zero (S := S1x10) zero_offsets]
  rw [stored_eq]
  obtain ⟨e00, e01, e10, e11, e20, e21, e30, e31⟩ := index_facts t
  funext j
  show project (iblk2 V c 0 t) (iblk2 V c 1 t) (iblk2 V c 2 t) j
      = project (M := 1024) (K := 64) (N := 10) (V c main_v58) (V c main_arg11) (V c main_call2_v0)
          (((cfg2.win 3).blk t).view.emb j)
  refine project_congr _ _ _ _ _ _ j _ (fun k => ?_) (fun k => ?_) ?_
  · show V c main_v58 (((cfg2.win 0).blk t).view.emb (ix2 (j 0) k)) = V c main_v58 (ix2 (((cfg2.win 3).blk t).view.emb j 0) k)
    refine congrArg (V c main_v58) (funext fun a => Fin.ext ?_)
    match a with
    | ⟨0, _⟩ => show win2_0.index t (0 : Fin 2) * 1024 + 1 * (j 0).val = win2_3.index t (0 : Fin 2) * 1024 + 1 * (j 0).val; omega
    | ⟨1, _⟩ => show win2_0.index t (1 : Fin 2) * 64 + 1 * k.val = k.val; omega
  · show V c main_arg11 (((cfg2.win 1).blk t).view.emb (ix2 k (j 1))) = V c main_arg11 (ix2 k (((cfg2.win 3).blk t).view.emb j 1))
    refine congrArg (V c main_arg11) (funext fun a => Fin.ext ?_)
    match a with
    | ⟨0, _⟩ => show win2_1.index t (0 : Fin 2) * 64 + 1 * k.val = k.val; omega
    | ⟨1, _⟩ => show win2_1.index t (1 : Fin 2) * 10 + 1 * (j 1).val = win2_3.index t (1 : Fin 2) * 10 + 1 * (j 1).val; omega
  · show V c main_call2_v0 (((cfg2.win 2).blk t).view.emb (ix2 (0 : Fin 1) (j 1)))
        = V c main_call2_v0 (ix2 (0 : Fin 1) (((cfg2.win 3).blk t).view.emb j 1))
    refine congrArg (V c main_call2_v0) (funext fun a => Fin.ext ?_)
    match a with
    | ⟨0, _⟩ => show win2_2.index t (0 : Fin 2) * 1 + 1 * 0 = 0; omega
    | ⟨1, _⟩ => show win2_2.index t (1 : Fin 2) * 10 + 1 * (j 1).val = win2_3.index t (1 : Fin 2) * 10 + 1 * (j 1).val; omega

/-- An index of the result array is in the point's block iff each coordinate is in the block's range. -/
theorem mem_block (t : Fin cfg2.N) (i : S1024x10.Idx) :
    i ∈ ((cfg2.win 3).blk t).view.set ↔ ∀ a : Fin 2, win2_3.index t a * S1024x10.size a ≤ (i a).val ∧ (i a).val < win2_3.index t a * S1024x10.size a + S1024x10.size a := by
  show i ∈ ((View.whole main_v59).slice (win2_3.rect t)).set ↔ _
  rw [View.set_slice_whole, Rect.mem_set_unit]
  exact Iff.rfl

/-- Every index of the result array lies in the one block. -/
theorem covered (i : S1024x10.Idx) :
    ∃ t : Fin cfg2.N, (cfg2.win 3).flush t = true ∧ i ∈ ((cfg2.win 3).blk t).view.set := by
  have hi0 : (i 0).val < 1024 := (i 0).isLt
  have hi1 : (i 1).val < 10 := (i 1).isLt
  refine ⟨t2_0, flush2_3 _, ?_⟩
  obtain ⟨-, -, -, -, -, -, e30, e31⟩ := index_facts t2_0
  rw [mem_block]
  intro a
  match a with
  | ⟨0, _⟩ =>
    show win2_3.index t2_0 (0 : Fin 2) * 1024 ≤ (i 0).val ∧ (i 0).val < win2_3.index t2_0 (0 : Fin 2) * 1024 + 1024
    rw [e30]; omega
  | ⟨1, _⟩ =>
    show win2_3.index t2_0 (1 : Fin 2) * 10 ≤ (i 1).val ∧ (i 1).val < win2_3.index t2_0 (1 : Fin 2) * 10 + 10
    rw [e31]; omega

/-- THE RESULT ARRAY after the region: the projection of the arrays the region found. -/
theorem result (c : Dev nD) :
    (dat2 V c).arrAt 3 cfg2.N
      = project (M := 1024) (K := 64) (N := 10) (V c main_v58) (V c main_arg11) (V c main_call2_v0) :=
  (dat2 V c).arrAt_eq_of_cover 3 _ (fun t _ => written_back V c t) covered

end Cert.KernelIdeal.Region2

end
-- ==== Proof.KernelValue.lean ====
/-
  The idealized kernel's result buffer as the network's output of the launch contents of its arguments.

  The buffer contents at the boundaries of the program are a fold from the launch memory: a host stretch applies its
  operations, a region replaces its result array by the layer (or projection) of the arrays it found and leaves
  every other buffer alone. Reading that fold back from the result buffer: the projection of the per-graph mean of the
  second region's result; that result is the layer of the per-node mean of the first region's result and of that
  result itself; and the first region's result is the layer of the per-node mean of the embedded rows and of the
  embedded rows. No argument buffer is written on the way, so each is read at its launch contents.
-/
import proofs.«115658_j88648124990386_1_alg».proof.Proof.Gen.KernelIdeal.Frame
import proofs.«115658_j88648124990386_1_alg».proof.Proof.Network
import proofs.«115658_j88648124990386_1_alg».proof.Proof.Region0
import proofs.«115658_j88648124990386_1_alg».proof.Proof.Region1
import proofs.«115658_j88648124990386_1_alg».proof.Proof.Region2
import Idealize.ShloMosaic.Lib.StableHlo.Run

set_option maxRecDepth 16384

noncomputable section

namespace Cert.KernelIdeal.Value

open Cert.KernelIdeal Cert.KernelIdeal.Gen Idealize.ShloMosaic Idealize.ShloMosaic.TcCoe Idealize.SL.Sem
open Idealize.ShloMosaic.StableHlo
open Cert.Dense Cert.Network

variable (m : (ℓ : Loc nD τ sig) → Buf (Elt Ideal) ℓ) (ρ : Dev nD → PrngReg)

/-! ## Up to the first region -/

theorem at2_arg1 (c : Dev nD) : W2 m ρ c (Proc.devRef .tc main_arg1) = m ((c : Thread nD τ).loc main_arg1) := by
  show StableHlo.after hostOps0_1 (StableHlo.after hostOps0 (W0 m ρ c)) (Proc.devRef .tc main_arg1) = _
  after_results
theorem at2_arg2 (c : Dev nD) : W2 m ρ c (Proc.devRef .tc main_arg2) = m ((c : Thread nD τ).loc main_arg2) := by
  show StableHlo.after hostOps0_1 (StableHlo.after hostOps0 (W0 m ρ c)) (Proc.devRef .tc main_arg2) = _
  after_results
theorem at2_arg3 (c : Dev nD) : W2 m ρ c (Proc.devRef .tc main_arg3) = m ((c : Thread nD τ).loc main_arg3) := by
  show StableHlo.after hostOps0_1 (StableHlo.after hostOps0 (W0 m ρ c)) (Proc.devRef .tc main_arg3) = _
  after_results
theorem at2_arg5 (c : Dev nD) : W2 m ρ c (Proc.devRef .tc main_arg5) = m ((c : Thread nD τ).loc main_arg5) := by
  show StableHlo.after hostOps0_1 (StableHlo.after hostOps0 (W0 m ρ c)) (Proc.devRef .tc main_arg5) = _
  after_results
theorem at2_arg7 (c : Dev nD) : W2 m ρ c (Proc.devRef .tc main_arg7) = m ((c : Thread nD τ).loc main_arg7) := by
  show StableHlo.after hostOps0_1 (StableHlo.after hostOps0 (W0 m ρ c)) (Proc.devRef .tc main_arg7) = _
  after_results
theorem at2_arg8 (c : Dev nD) : W2 m ρ c (Proc.devRef .tc main_arg8) = m ((c : Thread nD τ).loc main_arg8) := by
  show StableHlo.after hostOps0_1 (StableHlo.after hostOps0 (W0 m ρ c)) (Proc.devRef .tc main_arg8) = _
  after_results
theorem at2_arg9 (c : Dev nD) : W2 m ρ c (Proc.devRef .tc main_arg9) = m ((c : Thread nD τ).loc main_arg9) := by
  show StableHlo.after hostOps0_1 (StableHlo.after hostOps0 (W0 m ρ c)) (Proc.devRef .tc main_arg9) = _
  after_results
theorem at2_arg10 (c : Dev nD) : W2 m ρ c (Proc.devRef .tc main_arg10) = m ((c : Thread nD τ).loc main_arg10) := by
  show StableHlo.after hostOps0_1 (StableHlo.after hostOps0 (W0 m ρ c)) (Proc.devRef .tc main_arg10) = _
  after_results
theorem at2_arg11 (c : Dev nD) : W2 m ρ c (Proc.devRef .tc main_arg11) = m ((c : Thread nD τ).loc main_arg11) := by
  show StableHlo.after hostOps0_1 (StableHlo.after hostOps0 (W0 m ρ c)) (Proc.devRef .tc main_arg11) = _
  after_results
theorem at2_arg12 (c : Dev nD) : W2 m ρ c (Proc.devRef .tc main_arg12) = m ((c : Thread nD τ).loc main_arg12) := by
  show StableHlo.after hostOps0_1 (StableHlo.after hostOps0 (W0 m ρ c)) (Proc.devRef .tc main_arg12) = _
  after_results

/-- The feature window of the first region holds the embedded rows. -/
theorem entry0_features (c : Dev nD) : V2 m ρ c main_v6 = embedRows (m ((c : Thread nD τ).loc main_arg4)) (m ((c : Thread nD τ).loc main_arg0)) := by
  show StableHlo.after hostOps0_1 (StableHlo.after hostOps0 (W0 m ρ c)) (Proc.devRef .tc main_v6) = _
  after_results
  rfl

set_option maxHeartbeats 4000000 in
/-- The aggregated window of the first region holds the per-node mean of the embedded rows. -/
theorem entry0_mean (c : Dev nD) :
    V2 m ρ c main_v25 = meanNeighbours32 (embedRows (m ((c : Thread nD τ).loc main_arg4)) (m ((c : Thread nD τ).loc main_arg0))) (m ((c : Thread nD τ).loc main_arg1)) (m ((c : Thread nD τ).loc main_arg2)) := by
  show StableHlo.after hostOps0_1 (StableHlo.after hostOps0 (W0 m ρ c)) (Proc.devRef .tc main_v25) = _
  after_results_simp
  rfl

/-- The bias window of the first region holds the first bias as a row. -/
theorem entry0_bias (c : Dev nD) : V2 m ρ c main_call0_v0 = asRow (m ((c : Thread nD τ).loc main_arg6)) := by
  show StableHlo.after hostOps0_1 (StableHlo.after hostOps0 (W0 m ρ c)) (Proc.devRef .tc main_call0_v0) = _
  after_results
  exact rowReshape_eq (m ((c : Thread nD τ).loc main_arg6)) shapeCasts_S64_S1x64

/-- THE FIRST REGION'S RESULT: the node features after the first layer. -/
theorem exit0 (c : Dev nD) :
    W3 m ρ c (Proc.devRef .tc main_v26)
      = hidden1 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) := by
  refine (W3_arr m ρ c 5).trans ?_
  rw [Region0.result (V2 m ρ) c, entry0_mean, entry0_features, entry0_bias]
  rw [show V2 m ρ c main_arg5 = m ((c : Thread nD τ).loc main_arg5) from at2_arg5 m ρ c, show V2 m ρ c main_arg7 = m ((c : Thread nD τ).loc main_arg7) from at2_arg7 m ρ c]
  rfl

/-! ## Between the first and the second region -/

theorem at3_arg1 (c : Dev nD) : W3 m ρ c (Proc.devRef .tc main_arg1) = m ((c : Thread nD τ).loc main_arg1) :=
  (W3_of_ne m ρ c main_arg1 (by decide)).trans (at2_arg1 m ρ c)
theorem at3_arg2 (c : Dev nD) : W3 m ρ c (Proc.devRef .tc main_arg2) = m ((c : Thread nD τ).loc main_arg2) :=
  (W3_of_ne m ρ c main_arg2 (by decide)).trans (at2_arg2 m ρ c)
theorem at3_arg3 (c : Dev nD) : W3 m ρ c (Proc.devRef .tc main_arg3) = m ((c : Thread nD τ).loc main_arg3) :=
  (W3_of_ne m ρ c main_arg3 (by decide)).trans (at2_arg3 m ρ c)
theorem at3_arg8 (c : Dev nD) : W3 m ρ c (Proc.devRef .tc main_arg8) = m ((c : Thread nD τ).loc main_arg8) :=
  (W3_of_ne m ρ c main_arg8 (by decide)).trans (at2_arg8 m ρ c)
theorem at3_arg9 (c : Dev nD) : W3 m ρ c (Proc.devRef .tc main_arg9) = m ((c : Thread nD τ).loc main_arg9) :=
  (W3_of_ne m ρ c main_arg9 (by decide)).trans (at2_arg9 m ρ c)
theorem at3_arg10 (c : Dev nD) : W3 m ρ c (Proc.devRef .tc main_arg10) = m ((c : Thread nD τ).loc main_arg10) :=
  (W3_of_ne m ρ c main_arg10 (by decide)).trans (at2_arg10 m ρ c)
theorem at3_arg11 (c : Dev nD) : W3 m ρ c (Proc.devRef .tc main_arg11) = m ((c : Thread nD τ).loc main_arg11) :=
  (W3_of_ne m ρ c main_arg11 (by decide)).trans (at2_arg11 m ρ c)
theorem at3_arg12 (c : Dev nD) : W3 m ρ c (Proc.devRef .tc main_arg12) = m ((c : Thread nD τ).loc main_arg12) :=
  (W3_of_ne m ρ c main_arg12 (by decide)).trans (at2_arg12 m ρ c)
theorem at5_arg3 (c : Dev nD) : W5 m ρ c (Proc.devRef .tc main_arg3) = m ((c : Thread nD τ).loc main_arg3) := by
  show StableHlo.after hostOps1_1 (StableHlo.after hostOps1 (W3 m ρ c)) (Proc.devRef .tc main_arg3) = _
  after_results
  exact at3_arg3 m ρ c
theorem at5_arg8 (c : Dev nD) : W5 m ρ c (Proc.devRef .tc main_arg8) = m ((c : Thread nD τ).loc main_arg8) := by
  show StableHlo.after hostOps1_1 (StableHlo.after hostOps1 (W3 m ρ c)) (Proc.devRef .tc main_arg8) = _
  after_results
  exact at3_arg8 m ρ c
theorem at5_arg10 (c : Dev nD) : W5 m ρ c (Proc.devRef .tc main_arg10) = m ((c : Thread nD τ).loc main_arg10) := by
  show StableHlo.after hostOps1_1 (StableHlo.after hostOps1 (W3 m ρ c)) (Proc.devRef .tc main_arg10) = _
  after_results
  exact at3_arg10 m ρ c
theorem at5_arg11 (c : Dev nD) : W5 m ρ c (Proc.devRef .tc main_arg11) = m ((c : Thread nD τ).loc main_arg11) := by
  show StableHlo.after hostOps1_1 (StableHlo.after hostOps1 (W3 m ρ c)) (Proc.devRef .tc main_arg11) = _
  after_results
  exact at3_arg11 m ρ c
theorem at5_arg12 (c : Dev nD) : W5 m ρ c (Proc.devRef .tc main_arg12) = m ((c : Thread nD τ).loc main_arg12) := by
  show StableHlo.after hostOps1_1 (StableHlo.after hostOps1 (W3 m ρ c)) (Proc.devRef .tc main_arg12) = _
  after_results
  exact at3_arg12 m ρ c

/-- The feature window of the second region holds the first region's result. -/
theorem entry1_features (c : Dev nD) : V5 m ρ c main_v26 = W3 m ρ c (Proc.devRef .tc main_v26) := by
  show StableHlo.after hostOps1_1 (StableHlo.after hostOps1 (W3 m ρ c)) (Proc.devRef .tc main_v26) = _
  after_results

set_option maxHeartbeats 4000000 in
/-- The aggregated window of the second region holds the per-node mean of the first region's result. -/
theorem entry1_mean (c : Dev nD) :
    V5 m ρ c main_v45 = meanNeighbours64 (W3 m ρ c (Proc.devRef .tc main_v26)) (m ((c : Thread nD τ).loc main_arg1)) (m ((c : Thread nD τ).loc main_arg2)) := by
  show StableHlo.after hostOps1_1 (StableHlo.after hostOps1 (W3 m ρ c)) (Proc.devRef .tc main_v45) = _
  after_results_simp
  rw [at3_arg1, at3_arg2]
  rfl

/-- The bias window of the second region holds the second bias as a row. -/
theorem entry1_bias (c : Dev nD) : V5 m ρ c main_call1_v0 = asRow (m ((c : Thread nD τ).loc main_arg9)) := by
  show StableHlo.after hostOps1_1 (StableHlo.after hostOps1 (W3 m ρ c)) (Proc.devRef .tc main_call1_v0) = _
  after_results
  rw [at3_arg9]
  exact rowReshape_eq (m ((c : Thread nD τ).loc main_arg9)) shapeCasts_S64_S1x64

/-- THE SECOND REGION'S RESULT: the node features after the second layer. -/
theorem exit1 (c : Dev nD) :
    W6 m ρ c (Proc.devRef .tc main_v46)
      = hidden2 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W6_arr m ρ c 5).trans ?_
  rw [Region1.result (V5 m ρ) c, entry1_mean, entry1_features, entry1_bias, exit0]
  rw [show V5 m ρ c main_arg8 = m ((c : Thread nD τ).loc main_arg8) from at5_arg8 m ρ c, show V5 m ρ c main_arg10 = m ((c : Thread nD τ).loc main_arg10) from at5_arg10 m ρ c]
  rfl

/-! ## Between the second and the third region -/

theorem at6_arg3 (c : Dev nD) : W6 m ρ c (Proc.devRef .tc main_arg3) = m ((c : Thread nD τ).loc main_arg3) :=
  (W6_of_ne m ρ c main_arg3 (by decide)).trans (at5_arg3 m ρ c)
theorem at6_arg11 (c : Dev nD) : W6 m ρ c (Proc.devRef .tc main_arg11) = m ((c : Thread nD τ).loc main_arg11) :=
  (W6_of_ne m ρ c main_arg11 (by decide)).trans (at5_arg11 m ρ c)
theorem at6_arg12 (c : Dev nD) : W6 m ρ c (Proc.devRef .tc main_arg12) = m ((c : Thread nD τ).loc main_arg12) :=
  (W6_of_ne m ρ c main_arg12 (by decide)).trans (at5_arg12 m ρ c)
theorem at8_arg11 (c : Dev nD) : W8 m ρ c (Proc.devRef .tc main_arg11) = m ((c : Thread nD τ).loc main_arg11) := by
  show StableHlo.after hostOps2_1 (StableHlo.after hostOps2 (W6 m ρ c)) (Proc.devRef .tc main_arg11) = _
  after_results
  exact at6_arg11 m ρ c

set_option maxHeartbeats 4000000 in
/-- The pooled window of the third region holds the per-graph mean of the second region's result. -/
theorem entry2_pooled (c : Dev nD) :
    V8 m ρ c main_v58 = meanPool (W6 m ρ c (Proc.devRef .tc main_v46)) (m ((c : Thread nD τ).loc main_arg3)) := by
  show StableHlo.after hostOps2_1 (StableHlo.after hostOps2 (W6 m ρ c)) (Proc.devRef .tc main_v58) = _
  after_results_simp
  rw [at6_arg3]
  rfl

/-- The bias window of the third region holds the output bias as a row. -/
theorem entry2_bias (c : Dev nD) : V8 m ρ c main_call2_v0 = asRow (m ((c : Thread nD τ).loc main_arg12)) := by
  show StableHlo.after hostOps2_1 (StableHlo.after hostOps2 (W6 m ρ c)) (Proc.devRef .tc main_call2_v0) = _
  after_results
  rw [at6_arg12]
  exact rowReshape_eq (m ((c : Thread nD τ).loc main_arg12)) shapeCasts_S10_S1x10

/-- THE RESULT BUFFER at the end of the program: the network's output of the arguments' launch contents. -/
theorem result (c : Dev nD) :
    W9 m ρ c (Proc.devRef .tc main_v59)
      = output (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (W9_arr m ρ c 3).trans ?_
  rw [Region2.result (V8 m ρ) c, entry2_pooled, entry2_bias, exit1]
  rw [show V8 m ρ c main_arg11 = m ((c : Thread nD τ).loc main_arg11) from at8_arg11 m ρ c]
  rfl

end Cert.KernelIdeal.Value

end
-- ==== Proof.RefValue.lean ====
/-
  The reference's result as the network's output of its arguments.

  The reference's run ends with its result at one composed term of the arguments. Its two layers are written
  product, plus bias, plus product, then the maximum with zero; its projection product plus bias: the host
  spellings of the layer and of the projection. What remains around them are the gather, scatter-add and divide
  chains, which are the very operations the network's definition names.
-/
import proofs.«115658_j88648124990386_1_alg».proof.Proof.Gen.ReferenceIdeal.Run
import proofs.«115658_j88648124990386_1_alg».proof.Proof.Network

set_option maxRecDepth 16384

noncomputable section

namespace Cert.RefValue

open Cert.ReferenceIdeal Cert.ReferenceIdeal.Gen Idealize.ShloMosaic Idealize.ShloMosaic.TcCoe Idealize.SL.Sem
open Cert.Dense Cert.Network

/-- The reference's three contractions are the plain rows-by-columns ones. -/
theorem contraction1 : dot_S100000x32_S32x64_S100000x64_1_0_0_1_n_n = DotDims.plain 100000 32 64 := rfl
theorem contraction2 : dot_S100000x64_S64x64_S100000x64_1_0_0_1_n_n = DotDims.plain 100000 64 64 := rfl
theorem contraction3 : dot_S1024x64_S64x10_S1024x10_1_0_0_1_n_n = DotDims.plain 1024 64 10 := rfl

/-- THE REFERENCE'S RESULT: the network's output of the arguments' launch contents. -/
theorem result (m : (ℓ : Loc nD τ sig) → Buf (Elt Ideal) ℓ) (c : Dev nD) :
    Cert.ReferenceIdeal.Value.res_main_v74 (F := Ideal) m c
      = output (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  unfold Cert.ReferenceIdeal.Value.res_main_v74
  rw [contraction1, contraction2, contraction3]
  rw [project_of_dot]
  repeat rw [layer_of_dots]
  unfold output hidden2 hidden1 meanPool meanNeighbours64 meanNeighbours32 degree sourceColumn embedRows
  rfl

end Cert.RefValue

end
-- ==== Proof.lean ====
/-
  A two-layer graph network (mean aggregation over incoming edges, a dense rectified stage per layer, a per-graph
  mean and a final projection) computed with its three dense stages as tiled kernels, against the same network
  written with plain dot products.

  Both programs share the irregular steps (row gathers, scatter-adds, the divisions by the clamped counts)
  operation for operation. The dense stage of a layer is, on the extended reals,
      max((A Wl + X Wr) + b, 0)   in the kernel   and   max(((A Wl) + b) + X Wr, 0)   in the reference:
  equal by commutativity and associativity of addition, with no finiteness needed; a change of float format is
  the identity and a product into a zero accumulator is the dot product. Each tiled stage writes back, block of
  rows by block of rows, the stage of the WHOLE arrays (a row of the result depends on that row of the operands
  only), so each region's result array is the stage of the arrays it found; reading the program's buffers back
  from the result to the launch gives the network's output of the arguments on both sides.

  The three frames: the kernel programs' are the generated ones; the reference's is its generated run with the
  result dropped. Nothing was rewritten by the idealization, so that conjunct is trivial.
-/
import proofs.«115658_j88648124990386_1_alg».proof.Defs
import proofs.«115658_j88648124990386_1_alg».proof.Proof.Gen.Kernel
import proofs.«115658_j88648124990386_1_alg».proof.Proof.Gen.Kernel.Skeleton
import proofs.«115658_j88648124990386_1_alg».proof.Proof.Gen.Kernel.Launch
import proofs.«115658_j88648124990386_1_alg».proof.Proof.Gen.Kernel.Points
import proofs.«115658_j88648124990386_1_alg».proof.Proof.Gen.Kernel.Frame
import proofs.«115658_j88648124990386_1_alg».proof.Proof.Gen.KernelIdeal
import proofs.«115658_j88648124990386_1_alg».proof.Proof.Gen.KernelIdeal.Skeleton
import proofs.«115658_j88648124990386_1_alg».proof.Proof.Gen.KernelIdeal.Launch
import proofs.«115658_j88648124990386_1_alg».proof.Proof.Gen.KernelIdeal.Points
import proofs.«115658_j88648124990386_1_alg».proof.Proof.Gen.KernelIdeal.Frame
import proofs.«115658_j88648124990386_1_alg».proof.Proof.Gen.ReferenceIdeal
import proofs.«115658_j88648124990386_1_alg».proof.Proof.Gen.ReferenceIdeal.Run
import proofs.«115658_j88648124990386_1_alg».proof.Proof.Gen.Pre_finite_inputs
import proofs.«115658_j88648124990386_1_alg».proof.Proof.KernelRun
import proofs.«115658_j88648124990386_1_alg».proof.Proof.KernelValue
import proofs.«115658_j88648124990386_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the arguments both programs end with the network's output of those arguments in
    their result buffers. -/
theorem algebraic : Cert.algebraic_KernelIdeal_ReferenceIdeal := by
  intro m ρ m' ρ' _ hagree
  refine ⟨fun c => Cert.Network.output
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12)),
    ?_, ?_⟩
  · exact (θ_run Cert.KernelIdeal.defs _ _).mono
      (fun r h c => ⟨(h c).1.trans (Cert.KernelIdeal.Value.result m ρ c), (h c).2⟩)
      (Cert.KernelIdeal.GenRun.run_result (F := Ideal) m ρ)
  · refine (θ_run Cert.ReferenceIdeal.defs _ _).mono (fun r h c => ⟨(h c).1.trans ?_, (h c).2⟩)
      (Cert.ReferenceIdeal.Value.run (F := Ideal) m' ρ')
    rw [Cert.RefValue.result m' c]
    obtain ⟨h0, h1, h2, h3, h4, h5, h6, h7, h8, h9, h10, h11, h12⟩ := hagree c
    rw [h0, h1, h2, h3, h4, h5, h6, h7, h8, h9, h10, h11, h12]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
